-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S8 : Shape := ⟨1, ![8]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_c_6 : IVec S_ 32 := constantI S_ 32 1#32
  let main_v19 : IVec S8 32 := broadcastInDim S8 ![] bcast_S_S8 main_c_6
  let main_v20 : IVec S8 1 := cmpi .sge main_arg4 main_v19
  let main_c_7 : IVec S_ 1 := constantI S_ 1 1#1
  let main_v21 : IVec S_ 1 := (fun x v => Host.reduce IntOp.andi x v reducesTo_S8_S_d0 h_S_) main_v20 main_c_7
  let main_v22 : IVec S_ 1 := andi main_v18 main_v21
  let main_c_8 : IVec S_ 32 := constantI S_ 32 2048#32
  let main_v23 : IVec S8 32 := broadcastInDim S8 ![] bcast_S_S8 main_c_8
  let main_v24 : IVec S8 1 := cmpi .sle main_arg4 main_v23
  let main_c_9 : IVec S_ 1 := constantI S_ 1 1#1
  let main_v25 : IVec S_ 1 := (fun x v => Host.reduce IntOp.andi x v reducesTo_S8_S_d0 h_S_) main_v24 main_c_9
  let main_v26 : IVec S_ 1 := andi main_v22 main_v25
  main_v26

def fn {F : FTy → Type} [FloatOps F] (main_arg0 : FVec F S8x2048x1024 .f32) (main_arg1 : FVec F S8x2048x1024 .f32) (main_arg2 : FVec F S1024x1024 .f32) (main_arg3 : FVec F S1024 .f32) (main_arg4 : IVec S8 32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S8 : Shape := ⟨1, ![8]⟩
abbrev S1x1024x1024 : Shape := ⟨3, ![1, 1024, 1024]⟩
abbrev S1x256x1024 : Shape := ⟨3, ![1, 256, 1024]⟩
abbrev S1 : Shape := ⟨1, ![1]⟩
abbrev S1024x1 : Shape := ⟨2, ![1024, 1]⟩
abbrev S256x1024 : Shape := ⟨2, ![256, 1024]⟩
abbrev S1x1024 : Shape := ⟨2, ![1, 1024]⟩
abbrev S1024x256 : Shape := ⟨2, ![1024, 256]⟩

abbrev nBuf : Space → Nat
  | .hbm => 5
  | .vmem => 12
  | .smem => 1
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x256x1024, .f32⟩
  | .local _ .vmem, ⟨3, _⟩ => ⟨S1x256x1024, .f32⟩
  | .local _ .vmem, ⟨4, _⟩ => ⟨S1024x1024, .f32⟩
  | .local _ .vmem, ⟨5, _⟩ => ⟨S1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1024, .f32⟩
  | .local _ .smem, ⟨0, _⟩ => ⟨S8, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![8, 2, 8], ![false, false, false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_3 : BitVec 32 := 0#32
  let v14 : BitVec 1 := Scalar.cmpi .ne v13 c0_i32_3
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg0
  let v1 : BitVec 32 := pf.at 0 (Rect.unit (s := S8) ![v0.toNat] S1.size (k0_off1_inb i)) numel1_S1
  let c255_i32 : BitVec 32 := 255#32
  let v2 : BitVec 32 := Scalar.addi v1 c255_i32
  let c256_i32 : BitVec 32 := 256#32
  let v3 : BitVec 32 := Scalar.divsi v2 c256_i32
  let c1_i32 : BitVec 32 := 1#32
  let v4 : BitVec 32 := Scalar.subi v3 c1_i32
  let v5 : BitVec 32 := Scalar.minsi arg2 v4
  let c0_i32 : BitVec 32 := 0#32
  let c0_i32_0 : BitVec 32 := 0#32
  ![arg0.toNat, v5.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  numel1_S1 : S1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  iota_S1024x256_d1_w32 : S1024x256.Iotas .tc 32 [1]
  natLt_1_32 : 1 < 32
  reduces_S1024x256_S1024 : S1024x256.Reduces [1] S1024
  shapeCasts_S1024_S1024x1 : S1024.ShapeCasts S1024x1
  broadcasts_S1024x1_S1024x256 : S1024x1.Broadcasts S1024x256
  broadcasts_S1024x1_S1024x1024 : S1024x1.Broadcasts S1024x1024
  shapeCasts_S1024x1024_S1x1024x1024 : S1024x1024.ShapeCasts S1x1024x1024
  dot_S256x1024_S1024x1024_S256x1024_1_1_0_0_n_n_wf : DotDims.WF S256x1024 S1024x1024 S256x1024 [1] [1] [0] [0] [] []
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S8x2048x1024.size a
  hwx0_4 : ∀ i : grid0.Coords, EltTy.bits .f32 = 32 ∨ (Rect.block (s := S8x2048x1024) S1x1024x1024.size (cc0_transform_4 i) (hinb0_4 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev spec0_0 : Pipeline.WinSpec sig grid0.rank :=
  Pipeline.WinSpec.ofSpec (Memref.whole main_arg0) S1x1024x1024.size reads0_0 false false 2 stage0_0 sem0_0 nbuf0_0 hstage0_0

abbrev spec0_1 : Pipeline.WinSpec sig grid0.rank :=
  Pipeline.WinSpec.ofSpec (Memref.whole main_arg1) S1x256x1024.size reads0_1 false false 2 stage0_1 sem0_1 nbuf0_1 hstage0_1

abbrev spec0_2 : Pipeline.WinSpec sig grid0.rank :=
  Pipeline.WinSpec.ofSpec (Memref.whole main_arg2) S1024x1024.size reads0_2 false true 1 stage0_2 sem0_2 nbuf0_2 hstage0_2

abbrev spec0_3 : Pipeline.WinSpec sig grid0.rank :=
  Pipeline.WinSpec.ofSpec (Memref.whole main_arg3) S1024.size reads0_3 false true 1 stage0_3 sem0_3 nbuf0_3 hstage0_3

abbrev spec0_4 : Pipeline.WinSpec sig grid0.rank :=
  Pipeline.WinSpec.ofSpec (Memref.whole main_v0) S1x1024x1024.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 | 1 => cc0_transform_1 k0_off1_inb numel1_S1 pf | 2 => cc0_transform_2 | 3 => cc0_transform_3 | 4 => cc0_transform_4 | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 | 4 => hreads0_4 | ⟨_ + 5, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x256x1024.size a ≤ S8x2048x1024.size a), EltTy.bits .f32 = 32 ∨ (Rect.block (s := S8x2048x1024) S1x256x1024.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | 3 => hinb0_3 | 4 => hinb0_4 | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | 3 => hwx0_3 | 4 => hwx0_4 | ⟨_ + 5, h⟩ => absurd h (Nat.not_lt.2 (Nat.le_add_left _ _))
abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S8 : Shape := ⟨1, ![8]⟩
abbrev S1x1x1024 : Shape := ⟨3, ![1, 1, 1024]⟩
abbrev S8x2048x2048 : Shape := ⟨3, ![8, 2048, 2048]⟩
abbrev S2048 : Shape := ⟨1, ![2048]⟩
abbrev S1x1x2048 : Shape := ⟨3, ![1, 1, 2048]⟩
abbrev S8x1x1 : Shape := ⟨3, ![8, 1, 1]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1024x1024, .f32⟩
  | .hbm, ⟨3, _⟩ => ⟨S1024, .f32⟩
  | .hbm, ⟨4, _⟩ => ⟨S8, .i32⟩
  | .hbm, ⟨5, _⟩ => ⟨S8x2048x1024, .f32⟩
  | .hbm, ⟨6, _⟩ => ⟨S1x1x1024, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S2048, .i32⟩
  | .hbm, ⟨11, _⟩ => ⟨S1x1x2048, .i32⟩
  | .hbm, ⟨12, _⟩ => ⟨S8x1x1, .i32⟩
  | .hbm, ⟨13, _⟩ => ⟨S8x1x2048, .i32⟩
  | .hbm, ⟨14, _⟩ => ⟨S8x1x2048, .i32⟩
  | .hbm, ⟨15, _⟩ => ⟨S8x1x2048, .i1⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S_, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S8x2048x1, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x2048, .f32⟩
  | .hbm, ⟨42, _⟩ => ⟨S8x2048x2048, .f32⟩
  | .hbm, ⟨43, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S2048_S1x1x2048_2 : S2048.BroadcastsInDim S1x1x2048 (![2] : Fin 1 → Fin S1x1x2048.rank)
  bcast_S8_S8x1x1_0 : S8.BroadcastsInDim S8x1x1 (![0] : Fin 1 → Fin S8x1x1.rank)
  bcast_S1x1x2048_S8x1x2048_0_1_2 : S1x1x2048.BroadcastsInDim S8x1x2048 (![0, 1, 2] : Fin 3 → Fin S8x1x2048.rank)
  bcast_S8x1x1_S8x1x2048_0_1_2 : S8x1x1.BroadcastsInDim S8x1x2048 (![0, 1, 2] : Fin 3 → Fin S8x1x2048.rank)
  bcast_S8x1x2048_S8x2048x2048_0_1_2 : S8x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x1 : S_.BroadcastsInDim S8x2048x1 (![] : Fin 0 → Fin S8x2048x1.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.PreFacts.lean ====
/-
  What the precondition says, decoded: every entry of the four float arrays is a real number, and every key
  length seq_len[b] lies between 1 and 2048 (read as a signed word).

  The precondition is a conjunction of six "for all entries" statements, each a reduction by "and" of an array of
  one-bit comparison results down to a single bit, the six bits joined by "and". The conjunction being 1 makes each
  reduced bit 1, hence each compared entry 1. For a float entry x the comparison is |x| < +∞ where |x| = max x (-x)
  on the extended reals: it fails at both infinities (and at the junk value, which is −∞ here), so x is a real.
  For a length word w the two comparisons are the signed 1 ≤ w and w ≤ 2048.
-/
import proofs.«426862_j69552700391693_2_alg».proof.Pre_finite_inputs
import Idealize.ShloMosaic.PureOps.Ideal
import Idealize.ShloMosaic.Lib.ValueIdx
import Idealize.ShloMosaic.Lib.ReduceAll

noncomputable section

namespace Attn.PreFacts

open Idealize.ShloMosaic Idealize.ShloMosaic.ValueIdx Cert.Pre_finite_inputs

/-- A rank-0 array has exactly one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- An extended real x with max x (-x) < +∞ is a real number: at x = +∞ the maximum is +∞, and at x = −∞ its negation is. -/
theorem real_of_abs_lt_top (x : EReal) (h : max x (-x) < ⊤) : ∃ r : ℝ, x = (r : EReal) := by
  induction x using EReal.rec with
  | bot => simp at h
  | coe r => exact ⟨r, rfl⟩
  | top => simp at h

/-- The element fact of a float conjunct: the printed comparison |x| < 0x7F800000 (the pattern of +∞) coming out 1
    says x is a real number. -/
theorem elem_real (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  rw [ofBool_eq_one] at h
  exact real_of_abs_lt_top x (of_decide_eq_true h)

/-- The element fact of the lower length conjunct: the signed comparison w ≥ 1 coming out 1. -/
theorem one_le_of_sge (w : BitVec 32) (h : IntOp.cmpi .sge w 1#32 = 1#1) : 1 ≤ w.toInt := by
  unfold IntOp.cmpi at h
  rw [ofBool_eq_one] at h
  have h' : (1#32 : BitVec 32).toInt ≤ w.toInt := by simpa [BitVec.sle] using h
  have e1 : (1#32 : BitVec 32).toInt = 1 := by decide
  omega

/-- The element fact of the upper length conjunct: the signed comparison w ≤ 2048 coming out 1. -/
theorem le_of_sle (w : BitVec 32) (h : IntOp.cmpi .sle w 2048#32 = 1#1) : w.toInt ≤ 2048 := by
  unfold IntOp.cmpi at h
  rw [ofBool_eq_one] at h
  have h' : w.toInt ≤ (2048#32 : BitVec 32).toInt := by simpa [BitVec.sle] using h
  have e1 : (2048#32 : BitVec 32).toInt = 2048 := by decide
  omega

variable [Cert.Pre_finite_inputs.Facts]

/-- The lengths are in range, at any instance (the conjuncts on seq_len are integer comparisons). -/
theorem len_range {F : FTy → Type} [FloatOps F] (a0 a1 : FVec F S8x2048x1024 .f32) (a2 : FVec F S1024x1024 .f32)
    (a3 : FVec F S1024 .f32) (L : IVec S8 32)
    (h : Cert.Pre_finite_inputs.fn (F := F) a0 a1 a2 a3 L = fun _ => 1#1) :
    ∀ b : Fin 8, 1 ≤ (L (ix1 b)).toInt ∧ (L (ix1 b)).toInt ≤ 2048 := by
  have e := congrFun h ix0
  dsimp only [Cert.Pre_finite_inputs.fn, Cert.Pre_finite_inputs.fn_part1] at e
  simp only [andi, IntOp.andi_eq_one] at e
  obtain ⟨⟨-, hge⟩, hle⟩ := e
  intro b
  exact ⟨one_le_of_sge _ (Host.reduce_andi_all _ _ _ _ ix0 hge (ix1 b)),
    le_of_sle _ (Host.reduce_andi_all _ _ _ _ ix0 hle (ix1 b))⟩

/-- At the ideal instance every float entry is a real number. -/
theorem finite (a0 a1 : FVec Ideal S8x2048x1024 .f32) (a2 : FVec Ideal S1024x1024 .f32)
    (a3 : FVec Ideal S1024 .f32) (L : IVec S8 32)
    (h : Cert.Pre_finite_inputs.fn (F := Ideal) a0 a1 a2 a3 L = fun _ => 1#1) :
    (∀ i, ∃ x : ℝ, a0 i = (x : EReal)) ∧ (∀ i, ∃ x : ℝ, a1 i = (x : EReal))
      ∧ (∀ i, ∃ x : ℝ, a2 i = (x : EReal)) ∧ (∀ i, ∃ x : ℝ, a3 i = (x : EReal)) := by
  have e := congrFun h ix0
  dsimp only [Cert.Pre_finite_inputs.fn, Cert.Pre_finite_inputs.fn_part1] at e
  simp only [andi, IntOp.andi_eq_one] at e
  obtain ⟨⟨⟨⟨⟨h0, h1⟩, h2⟩, h3⟩, -⟩, -⟩ := e
  exact ⟨fun i => elem_real _ (Host.reduce_andi_all _ _ _ _ ix0 h0 i),
    fun i => elem_real _ (Host.reduce_andi_all _ _ _ _ ix0 h1 i),
    fun i => elem_real _ (Host.reduce_andi_all _ _ _ _ ix0 h2 i),
    fun i => elem_real _ (Host.reduce_andi_all _ _ _ _ ix0 h3 i)⟩

end Attn.PreFacts

end
-- ==== Proof.LenDefsK.lean ====
/-
  The prefetched lengths: seq_len as the launch memory holds it, and the word of it the body reads at a grid point.
-/
import proofs.«426862_j69552700391693_2_alg».proof.Proof.Gen.Kernel.Frame.Runs

noncomputable section

namespace Cert.Kernel.Conds

open Cert.Kernel Cert.Kernel.Gen Idealize.ShloMosaic Idealize.ShloMosaic.TcCoe Idealize.SL.Sem

variable {F : FTy → Type} [FloatOps F]
variable (m : (ℓ : Loc nD τ sig) → Buf (Elt F) ℓ)

/-- seq_len as the launch memory of device c holds it. -/
abbrev lens (c : Dev nD) : S8.Idx → BitVec 32 := m ((c : Thread nD τ).loc main_arg4)

/-- The length word the body (and the key/value index map) reads at a grid point. -/
abbrev lenWord (i : grid0.Coords) : BitVec 32 :=
  tbM0_0.view.readAt (Elt F) (Rect.unit (s := S8) (k0_off1 i) S1.size (k0_off1_inb i)).toLoadRect (tbl m 0)
    (Shape.Idx.first (numel1_S1.symm ▸ Nat.one_pos))

end Cert.Kernel.Conds

end
-- ==== Proof.CondsK.lean ====
/-
  The prefetched lengths and the body's two conditions on them.

  The body reads seq_len[b] (b the grid's first coordinate) and asks whether the tile's first key position
  256 * ki lies below it; the key/value window's block index is min(ki, ceil(len / 256) - 1), which is ki itself
  on such a tile and stays inside the array as soon as 1 <= len <= 2048.
-/
import proofs.«426862_j69552700391693_2_alg».proof.Proof.LenDefsK
import Idealize.ShloMosaic.Lib.ValueIdx
import Idealize.ShloMosaic.Lib.Affine
import Idealize.ShloMosaic.Lib.WordArith

noncomputable section

namespace Cert.Kernel.Conds

open Cert.Kernel Cert.Kernel.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The grid point t is (b, qi, ki) = (t / 16, t / 8 mod 2, t mod 8). -/
theorem coords_val (t : Fin grid0.N) :
    (grid0.coords t 0).val = t.val / 16 ∧ (grid0.coords t 1).val = t.val / 8 % 2 ∧ (grid0.coords t 2).val = t.val % 8 :=
  (by decide +kernel : ∀ t : Fin grid0.N,
    (grid0.coords t 0).val = t.val / 16 ∧ (grid0.coords t 1).val = t.val / 8 % 2 ∧ (grid0.coords t 2).val = t.val % 8) t

/-- That word is seq_len[b]. -/
theorem lenWord_eq (i : grid0.Coords) : lenWord m i = lens m 0 (ix1 (i 0)) := by
  -- both sides are the launch memory's table at an index; the indices agree on the one axis
  show (tbl m 0) _ = _
  unfold tbl
  show m _ _ = m _ _
  have hi : (i 0).val < 8 := (i 0).isLt
  have hoff : (BitVec.ofNat 32 (i 0).val).toNat = (i 0).val := WordArith.toNat_ofNat_of_lt _ (by omega)
  congr 1
  funext a
  apply Fin.ext
  obtain ⟨a, ha⟩ := a
  have ha' : a < 1 := ha
  obtain rfl : a = 0 := by omega
  -- offset b, stride 1, the unit rectangle's one index 0
  show (BitVec.ofNat 32 (i 0).val).toNat + 1 * 0 = (i 0).val
  omega

/-- The first condition: the tile starts below the length. -/
theorem cond1_iff (i : grid0.Coords) (w : BitVec 32) : cond0_1 i w ↔ ((256 * (i 2).val : ℕ) : Int) < w.toInt := by
  have hki : (i 2).val < 8 := (i 2).isLt
  -- 256 * ki < 2048 does not wrap
  have hm : (Scalar.muli (BitVec.ofNat 32 (i 2).val) 256#32).toInt = ((256 * (i 2).val : ℕ) : Int) := by
    have := Affine.muli (Affine.ofNat (i 2).val (e := ((i 2).val : Int)) ⟨rfl, by omega⟩) (Affine.ofNat 256 (e := 256) ⟨rfl, by norm_num⟩)
      (e := ((i 2).val : Int) * 256) ⟨rfl, by omega, by omega⟩
    unfold Affine.IsInt at this
    rw [this]; push_cast; ring
  show Scalar.cmpi .ne (Scalar.extui _) 0#32 = 1#1 ↔ _
  rw [Scalar.guard_iff, Scalar.cmpi, IntOp.cmpi_slt, hm]

/-- The second condition is the first one's negation. -/
theorem cond2_iff (i : grid0.Coords) (w : BitVec 32) : cond0_2 i w ↔ ¬ cond0_1 i w := by
  show Scalar.cmpi .ne (Scalar.extui _) 0#32 = 1#1 ↔ ¬ (Scalar.cmpi .ne (Scalar.extui _) 0#32 = 1#1)
  rw [Scalar.guard_iff, Scalar.guard_iff]
  -- a bit flipped is one exactly when the bit is not
  generalize Scalar.cmpi .slt _ w = c
  revert c; decide

/-- The key/value window's block index word at tile ki and length word w: min(ki, (w + 255) / 256 - 1). -/
def kvWord (ki : Nat) (w : BitVec 32) : BitVec 32 :=
  Scalar.minsi (BitVec.ofNat 32 ki) (Scalar.subi (Scalar.divsi (Scalar.addi w 255#32) 256#32) 1#32)

/-- With 1 ≤ w ≤ 2048 read signed, no step of that chain wraps and the division is of a positive word by a positive one:
    the word reads min(ki, (w + 255) / 256 - 1). -/
theorem kvWord_isInt (ki : Nat) (hki : ki < 8) (w : BitVec 32) (h1 : 1 ≤ w.toInt) (h2 : w.toInt ≤ 2048) :
    Affine.IsInt (kvWord ki w) (min (ki : Int) ((w.toInt + 255) / 256 - 1)) := by
  have hw := Affine.word w
  have hv2 := Affine.addi hw (Affine.ofNat 255 (e := 255) ⟨rfl, by norm_num⟩) (e := w.toInt + 255) ⟨rfl, by omega, by omega⟩
  have hv3 := Affine.divsi hv2 (Affine.ofNat 256 (e := 256) ⟨rfl, by norm_num⟩) (e := (w.toInt + 255) / 256) ⟨rfl, by omega, by omega⟩
  have hv4 := Affine.subi hv3 (Affine.ofNat 1 (e := 1) ⟨rfl, by norm_num⟩) (e := (w.toInt + 255) / 256 - 1) ⟨rfl, by omega, by omega⟩
  exact Affine.minsi (Affine.ofNat ki (e := ki) ⟨rfl, by omega⟩) hv4 rfl

/-- The key/value index map at a grid point, its table word named. -/
theorem transform1_eq (i : grid0.Coords) : cc0_transform_1 k0_off1_inb numel1_S1 (tbl m) i =
    ![(BitVec.ofNat 32 (i 0).val).toNat, (kvWord (i 2).val (lenWord m i)).toNat, 0] := rfl

/-- With every length in [1, 2048] the key/value window's blocks lie inside proj_q. -/
theorem ok_of_len (h : ∀ b : Fin 8, 1 ≤ (lens m 0 (ix1 b)).toInt ∧ (lens m 0 (ix1 b)).toInt ≤ 2048) : Ok m := by
  intro i
  have hb : (i 0).val < 8 := (i 0).isLt
  have hki : (i 2).val < 8 := (i 2).isLt
  obtain ⟨h1, h2⟩ := h (i 0)
  rw [← lenWord_eq m i] at h1 h2
  have hn := Affine.toNat_of (kvWord_isInt (i 2).val hki (lenWord m i) h1 h2) (by omega)
  have h0 : (BitVec.ofNat 32 (i 0).val).toNat = (i 0).val := WordArith.toNat_ofNat_of_lt _ (by omega)
  refine ⟨?_, Or.inl rfl⟩
  rw [transform1_eq]
  intro a
  fin_cases a
  · show ((BitVec.ofNat 32 (i 0).val).toNat + 1) * 1 ≤ 8
    omega
  · show ((kvWord (i 2).val (lenWord m i)).toNat + 1) * 256 ≤ 2048
    omega
  · show (0 + 1) * 1024 ≤ 1024
    omega

/-- On a tile that starts below the length the key/value window's block index is (b, ki, 0). -/
theorem kv_index (i : grid0.Coords) (h : ∀ b : Fin 8, 1 ≤ (lens m 0 (ix1 b)).toInt ∧ (lens m 0 (ix1 b)).toInt ≤ 2048)
    (hv : cond0_1 i (lenWord m i)) :
    cc0_transform_1 k0_off1_inb numel1_S1 (tbl m) i = ![(i 0).val, (i 2).val, 0] := by
  have hb : (i 0).val < 8 := (i 0).isLt
  have hki : (i 2).val < 8 := (i 2).isLt
  obtain ⟨h1, h2⟩ := h (i 0)
  rw [← lenWord_eq m i] at h1 h2
  rw [cond1_iff] at hv
  have hn := Affine.toNat_of (kvWord_isInt (i 2).val hki (lenWord m i) h1 h2) (by omega)
  have h0 : (BitVec.ofNat 32 (i 0).val).toNat = (i 0).val := WordArith.toNat_ofNat_of_lt _ (by omega)
  have hk : (kvWord (i 2).val (lenWord m i)).toNat = (i 2).val := by
    push_cast at hv
    omega
  rw [transform1_eq, h0, hk]

end Cert.Kernel.Conds

end
-- ==== Proof.SoftmaxDefs.lean ====
/-
  The online-softmax recurrence on one row, over the extended reals: the definitions.

  One output entry (row r, column h) of the attention kernel is computed from four running statistics
  (m, s, t, a): the running maximum of the masked scores, the running sum of exp(score - m) over ALL key
  positions, the same sum over the VALID positions only (weighted by the 0/1 mask w), and the running
  weighted sum of the value column.  A tile of n keys updates them either by the full update (stepV) or,
  when every key of the tile is masked, by the closed-form update (stepI: the masked scores of such a tile
  are all 0).  After K tiles the entry is a / (t + eps * s).  The reference's entry is refRow.
-/
import Idealize.ShloMosaic.PureOps.Ideal

noncomputable section

namespace Attn

open Idealize.ShloMosaic

/-- The running statistics (m, s, t, a) of one output entry. -/
abbrev St := EReal × EReal × EReal × EReal

/-- Before the first tile: m = -inf, the sums zero. -/
def init : St := (⊥, 0, 0, 0)

/-- The update by a tile of n keys with masked scores e, mask w and value column v. -/
def stepV {n : ℕ} (e w v : Fin n → EReal) (st : St) : St :=
  let m' := max st.1 (Finset.univ.fold max ⊥ e)
  let corr := Ideal.exp (st.1 - m')
  let p := fun j => Ideal.exp (e j - m')
  (m', st.2.1 * corr + ∑ j, p j, st.2.2.1 * corr + ∑ j, p j * w j, st.2.2.2 * corr + ∑ j, (p j * w j) * v j)

/-- The update by a tile all of whose keys are masked (c is the number of keys of the tile). -/
def stepI (c : EReal) (st : St) : St :=
  let m' := max st.1 0
  let corr := Ideal.exp (st.1 - m')
  (m', st.2.1 * corr + c * Ideal.exp (0 - m'), st.2.2.1 * corr, st.2.2.2 * corr)

/-- The output entry after the last tile. -/
def finish (eps : EReal) (st : St) : EReal := Ideal.div st.2.2.2 (st.2.2.1 + eps * st.2.1)

/-- The reference's entry: softmax of the masked scores E, re-masked by W, renormalised, contracted with V. -/
def refRow {N : ℕ} (eps : EReal) (E W V : Fin N → EReal) : EReal :=
  let M := Finset.univ.fold max ⊥ E
  let ex := fun q => Ideal.exp (E q - M)
  let S := ∑ q, ex q
  let a := fun q => Ideal.div (ex q) S * W q
  let T := ∑ q, a q
  ∑ q, Ideal.div (a q) (T + eps) * V q

/-- After k tiles of width n the statistics are the sums over the first n * k keys, shifted by SOME real mu. -/
def Inv (n : ℕ) (E W V : ℕ → ℝ) (k : ℕ) (st : St) : Prop :=
  ∃ mu : ℝ, st.1 = (mu : EReal)
    ∧ st.2.1 = ((∑ q ∈ Finset.range (n * k), Real.exp (E q - mu) : ℝ) : EReal)
    ∧ st.2.2.1 = ((∑ q ∈ Finset.range (n * k), Real.exp (E q - mu) * W q : ℝ) : EReal)
    ∧ st.2.2.2 = ((∑ q ∈ Finset.range (n * k), Real.exp (E q - mu) * W q * V q : ℝ) : EReal)

end Attn

end
-- ==== Proof.Spec.lean ====
/-
  What both programs compute, as one function of the argument arrays.

  trans_q[b, q, o] = (sum_h proj_q[b, q, h] * W_t[o, h]) + b_t[o]              (key)
  scores[b, p, q]  = sum_o proj_p[b, p, o] * trans_q[b, q, o]                  (score)
  mask[b, q]       = 1 when q < seq_len[b], else 0                             (mask)
  out[b, p, h]     = the masked, re-masked and renormalised softmax of scores[b, p, :] * mask[b, :]
                     contracted with proj_q[b, :, h]                           (outEntry, over Attn.refRow)
-/
import proofs.«426862_j69552700391693_2_alg».proof.Proof.SoftmaxDefs
import Idealize.ShloMosaic.Lib.ValueIdx

noncomputable section

namespace Attn

open Idealize.ShloMosaic Idealize.ShloMosaic.ValueIdx

/-- The shapes of the arguments: proj_p and proj_q, W_t, b_t, seq_len. -/
abbrev SPQ : Shape := ⟨3, ![8, 2048, 1024]⟩
abbrev SWt : Shape := ⟨2, ![1024, 1024]⟩
abbrev SBt : Shape := ⟨1, ![1024]⟩
abbrev SLen : Shape := ⟨1, ![8]⟩

/-- The f32 word of 1e-13 that both programs add to the denominator. -/
def eps : EReal := Ideal.ofBits .f32 0x29E12E13#32

variable (P Q : SPQ.Idx → EReal) (Wt : SWt.Idx → EReal) (Bt : SBt.Idx → EReal) (L : SLen.Idx → BitVec 32)

/-- The projected key: trans_q[b, q, o]. -/
def key (b : Fin 8) (q : Fin 2048) (o : Fin 1024) : EReal :=
  (∑ h : Fin 1024, Q (ix3 b q h) * Wt (ix2 o h)) + Bt (ix1 o)

/-- The attention score: scores[b, p, q]. -/
def score (b : Fin 8) (p q : Fin 2048) : EReal :=
  ∑ o : Fin 1024, P (ix3 b p o) * key Q Wt Bt b q o

/-- The key mask: 1 on the first seq_len[b] key positions of batch b (the length read as a signed word). -/
def mask (b : Fin 8) (q : Fin 2048) : EReal :=
  if (q.val : Int) < (L (ix1 b)).toInt then 1 else 0

/-- One entry of the result. -/
def outEntry (b : Fin 8) (p : Fin 2048) (h : Fin 1024) : EReal :=
  refRow eps (fun q => score P Q Wt Bt b p q * mask L b q) (fun q => mask L b q) (fun q => Q (ix3 b q h))

/-- The result array. -/
def G : SPQ.Idx → EReal := fun i => outEntry P Q Wt Bt L (i 0) (i 1) (i 2)

end Attn

end
-- ==== Proof.RefValue.lean ====
/-
  The reference program computes Attn.G: its straight line of host operations, read index by index.
-/
import proofs.«426862_j69552700391693_2_alg».proof.Proof.Gen.ReferenceIdeal.Read
import proofs.«426862_j69552700391693_2_alg».proof.Proof.Spec
import Idealize.ShloMosaic.PureOps.Ideal.Laws
import Idealize.ShloMosaic.PureOps.Reduce
import Idealize.ShloMosaic.Lib.ValueIdx
import Idealize.ShloMosaic.Lib.Affine
import Idealize.ShloMosaic.Lib.StableHlo.Predicate

noncomputable section

namespace Cert.ReferenceIdeal.RefValue

open Cert.ReferenceIdeal Cert.ReferenceIdeal.Gen Idealize.ShloMosaic Idealize.ShloMosaic.ValueIdx
open Cert.ReferenceIdeal.Read

variable (x0 x1 : FVec Ideal S8x2048x1024 .f32) (x2 : FVec Ideal S1024x1024 .f32) (x3 : FVec Ideal S1024 .f32)
    (x4 : IVec S8 32)

/-! ## The projected key and the scores -/

/-- The first product with the bias added is the projected key. -/
theorem key_eq (b : Fin 8) (q : Fin 2048) (o : Fin 1024) :
    val_main_v3 (F := Ideal) x1 x2 x3 (ix3 b q o) = Attn.key x1 x2 x3 b q o := by
  have el : ∀ k : Fin 1024, lidx_main_v0 (ix3 b q o) k = ix3 b q k := fun k =>
    funext fun a => Fin.ext (by match a with | ⟨0, _⟩ => rfl | ⟨1, _⟩ => rfl | ⟨2, _⟩ => rfl)
  have er : ∀ k : Fin 1024, ridx_main_v0 (ix3 b q o) k = ix2 o k := fun k =>
    funext fun a => Fin.ext (by match a with | ⟨0, _⟩ => rfl | ⟨1, _⟩ => rfl)
  have eb : idx_main_v1 (idx_main_v2 (ix3 b q o)) = ix1 o :=
    funext fun a => Fin.ext (by match a with | ⟨0, _⟩ => rfl)
  rw [val_main_v3_apply, val_main_v0_apply, val_main_v2_apply, val_main_v1_apply, eb]
  simp only [el, er]
  rfl

/-- The second product is the score. -/
theorem score_eq (b : Fin 8) (p q : Fin 2048) :
    val_main_v4 (F := Ideal) x0 x1 x2 x3 (ix3 b p q) = Attn.score x0 x1 x2 x3 b p q := by
  have el : ∀ k : Fin 1024, lidx_main_v4 (ix3 b p q) k = ix3 b p k := fun k =>
    funext fun a => Fin.ext (by match a with | ⟨0, _⟩ => rfl | ⟨1, _⟩ => rfl | ⟨2, _⟩ => rfl)
  have er : ∀ k : Fin 1024, ridx_main_v4 (ix3 b p q) k = ix3 b q k := fun k =>
    funext fun a => Fin.ext (by match a with | ⟨0, _⟩ => rfl | ⟨1, _⟩ => rfl | ⟨2, _⟩ => rfl)
  rw [val_main_v4_apply]
  simp only [el, er, key_eq]
  rfl

/-! ## The key mask -/

/-- A signed compare of a key position below 2048 with a length word, read unsigned as a float, is the 0/1 mask. -/
theorem mask_word (q : Fin 2048) (l : BitVec 32) :
    (FloatOps.uitofp (F := Ideal) .f32 (IntOp.cmpi .slt (BitVec.ofNat 32 q.val) l) : EReal)
      = if (q.val : Int) < l.toInt then 1 else 0 := by
  have hq : (BitVec.ofNat 32 q.val).toInt = (q.val : Int) :=
    StableHlo.Predicate.toInt_ofNat_small q.val (by have := q.isLt; omega)
  by_cases h : (q.val : Int) < l.toInt
  · have hc : IntOp.cmpi .slt (BitVec.ofNat 32 q.val) l = 1#1 := IntOp.cmpi_slt.mpr (by rw [hq]; exact h)
    rw [hc, if_pos h]
    show (((1#1 : BitVec 1).toNat : ℝ) : EReal) = 1
    simp
  · have hc : IntOp.cmpi .slt (BitVec.ofNat 32 q.val) l = 0#1 :=
      eq_zero_of_ne_one fun h1 => h (by rw [← hq]; exact IntOp.cmpi_slt.mp h1)
    rw [hc, if_neg h]
    show (((0#1 : BitVec 1).toNat : ℝ) : EReal) = 0
    simp

/-- The converted compare of the position iota with the broadcast lengths is the mask. -/
theorem mask11_eq (b : Fin 8) (z : Fin 1) (q : Fin 2048) :
    val_main_v11 (F := Ideal) x4 (ix3 b z q) = Attn.mask x4 b q := by
  have e9 : idx_main_v7 (idx_main_v9 (ix3 b z q)) = ix1 b :=
    funext fun a => Fin.ext (by match a with | ⟨0, _⟩ => rfl)
  rw [val_main_v11_apply, val_main_v10_apply, val_main_v8_apply, val_main_v6_apply, val_main_v5_apply,
    val_main_v9_apply, val_main_v7_apply, e9]
  exact mask_word q (x4 (ix1 b))

/-- Both broadcasts of the mask over the query positions read it at the key position. -/
theorem mask12_eq (b : Fin 8) (p q : Fin 2048) :
    val_main_v12 (F := Ideal) x4 (ix3 b p q) = Attn.mask x4 b q := by
  have e : idx_main_v12 (ix3 b p q) = ix3 b (0 : Fin 1) q :=
    funext fun a => Fin.ext (by match a with | ⟨0, _⟩ => rfl | ⟨1, _⟩ => rfl | ⟨2, _⟩ => rfl)
  rw [val_main_v12_apply, e, mask11_eq]

theorem mask25_eq (b : Fin 8) (p q : Fin 2048) :
    val_main_v25 (F := Ideal) x4 (ix3 b p q) = Attn.mask x4 b q := by
  have e : idx_main_v25 (ix3 b p q) = ix3 b (0 : Fin 1) q :=
    funext fun a => Fin.ext (by match a with | ⟨0, _⟩ => rfl | ⟨1, _⟩ => rfl | ⟨2, _⟩ => rfl)
  rw [val_main_v25_apply, e, mask11_eq]

/-! ## The rows of the softmax -/

/-- The masked scores of one query row. -/
def eRow (b : Fin 8) (p : Fin 2048) : Fin 2048 → EReal :=
  fun q => Attn.score x0 x1 x2 x3 b p q * Attn.mask x4 b q

/-- Their maximum. -/
def mRow (b : Fin 8) (p : Fin 2048) : EReal := Finset.univ.fold max ⊥ (eRow x0 x1 x2 x3 x4 b p)

/-- The exponentials of the shifted masked scores. -/
def exRow (b : Fin 8) (p : Fin 2048) : Fin 2048 → EReal :=
  fun q => Ideal.exp (eRow x0 x1 x2 x3 x4 b p q - mRow x0 x1 x2 x3 x4 b p)

/-- Their sum. -/
def sRow (b : Fin 8) (p : Fin 2048) : EReal := ∑ q, exRow x0 x1 x2 x3 x4 b p q

/-- The softmax, masked again. -/
def aRow (b : Fin 8) (p : Fin 2048) : Fin 2048 → EReal :=
  fun q => Ideal.div (exRow x0 x1 x2 x3 x4 b p q) (sRow x0 x1 x2 x3 x4 b p) * Attn.mask x4 b q

/-- The sum of the masked softmax. -/
def tRow (b : Fin 8) (p : Fin 2048) : EReal := ∑ q, aRow x0 x1 x2 x3 x4 b p q

/-- The specification's entry in these terms. -/
theorem G_apply (b : Fin 8) (p : Fin 2048) (h : Fin 1024) :
    Attn.G x0 x1 x2 x3 x4 (ix3 b p h)
      = ∑ q : Fin 2048, Ideal.div (aRow x0 x1 x2 x3 x4 b p q) (tRow x0 x1 x2 x3 x4 b p + Attn.eps) * x1 (ix3 b q h) := rfl

/-- The masked scores. -/
theorem e_eq (b : Fin 8) (p q : Fin 2048) :
    val_main_v13 (F := Ideal) x0 x1 x2 x3 x4 (ix3 b p q) = eRow x0 x1 x2 x3 x4 b p q := by
  rw [val_main_v13_apply, score_eq, mask12_eq]
  rfl

/-- The word of minus infinity is the bottom of the extended reals. -/
theorem ofBits_neg_inf : Ideal.ofBits .f32 0xFF800000#32 = (⊥ : EReal) := by
  simp [Ideal.ofBits, Ideal.ieee]

/-- The max-reduce over the key axis is the fold of max over the row. -/
theorem m14_eq (b : Fin 8) (p : Fin 2048) :
    val_main_v14 (F := Ideal) x0 x1 x2 x3 x4 (ix2 b p) = mRow x0 x1 x2 x3 x4 b p := by
  have hR : S8x2048x2048.Reduces [2] S8x2048 := by decide
  have ek : ∀ k : Fin 2048, hR.lift (ix2 b p) k = ix3 b p k := fun k =>
    funext fun a => Fin.ext (by match a with | ⟨0, _⟩ => rfl | ⟨1, _⟩ => rfl | ⟨2, _⟩ => rfl)
  have hf : (val_main_v13 (F := Ideal) x0 x1 x2 x3 x4 ∘ hR.lift (ix2 b p)) = eRow x0 x1 x2 x3 x4 b p :=
    funext fun (k : Fin 2048) =>
      (congrArg (val_main_v13 (F := Ideal) x0 x1 x2 x3 x4) (ek k)).trans (e_eq x0 x1 x2 x3 x4 b p k)
  unfold val_main_v14
  rw [Host.reduce_eq_fold_single (FloatOps.maximumf (F := Ideal) (φ := .f32)) _ _ reducesTo_S8x2048x2048_S8x2048_d2 hR h_S_ (ix2 b p),
    hf, val_main_cst_apply, Ideal.ofBits_def, ofBits_neg_inf]
  rfl

/-- So is the row maximum after the guard against minus infinity. -/
theorem m_eq (b : Fin 8) (p : Fin 2048) :
    val_main_v16 (F := Ideal) x0 x1 x2 x3 x4 (ix2 b p) = mRow x0 x1 x2 x3 x4 b p := by
  rw [val_main_v16_apply, val_main_v15_apply, val_main_cst_0_apply, m14_eq, Ideal.ofBits_def, ofBits_neg_inf]
  exact max_bot_left _

/-- The exponentials of the masked scores shifted by the row maximum. -/
theorem ex_eq (b : Fin 8) (p q : Fin 2048) :
    val_main_v20 (F := Ideal) x0 x1 x2 x3 x4 (ix3 b p q) = exRow x0 x1 x2 x3 x4 b p q := by
  have e : idx_main_v17 (idx_main_v18 (ix3 b p q)) = ix2 b p :=
    funext fun a => Fin.ext (by match a with | ⟨0, _⟩ => rfl | ⟨1, _⟩ => rfl)
  rw [val_main_v20_apply, val_main_v19_apply, val_main_v18_apply, val_main_v17_apply, e, m_eq, e_eq]
  rfl

/-- Their sum over the key axis: the initial value is zero. -/
theorem s_eq (b : Fin 8) (p : Fin 2048) :
    val_main_v21 (F := Ideal) x0 x1 x2 x3 x4 (ix2 b p) = sRow x0 x1 x2 x3 x4 b p := by
  have ek : ∀ k : Fin 2048, idx_main_v21 (ix2 b p) k = ix3 b p k := fun k =>
    funext fun a => Fin.ext (by match a with | ⟨0, _⟩ => rfl | ⟨1, _⟩ => rfl | ⟨2, _⟩ => rfl)
  rw [val_main_v21_apply, val_main_cst_1_apply, Ideal.ofBits_def, Ideal.ofBits_zero_f32, zero_add]
  simp only [ek, ex_eq]
  rfl

/-- The softmax, masked again. -/
theorem a_eq (b : Fin 8) (p q : Fin 2048) :
    val_main_v26 (F := Ideal) x0 x1 x2 x3 x4 (ix3 b p q) = aRow x0 x1 x2 x3 x4 b p q := by
  have e : idx_main_v22 (idx_main_v23 (ix3 b p q)) = ix2 b p :=
    funext fun a => Fin.ext (by match a with | ⟨0, _⟩ => rfl | ⟨1, _⟩ => rfl)
  rw [val_main_v26_apply, val_main_v24_apply, val_main_v23_apply, val_main_v22_apply, e, s_eq, ex_eq, mask25_eq]
  rfl

/-- Its sum over the key axis. -/
theorem t_eq (b : Fin 8) (p : Fin 2048) :
    val_main_v27 (F := Ideal) x0 x1 x2 x3 x4 (ix2 b p) = tRow x0 x1 x2 x3 x4 b p := by
  have ek : ∀ k : Fin 2048, idx_main_v27 (ix2 b p) k = ix3 b p k := fun k =>
    funext fun a => Fin.ext (by match a with | ⟨0, _⟩ => rfl | ⟨1, _⟩ => rfl | ⟨2, _⟩ => rfl)
  rw [val_main_v27_apply, val_main_cst_2_apply, Ideal.ofBits_def, Ideal.ofBits_zero_f32, zero_add]
  simp only [ek, a_eq]
  rfl

/-- The denominator of the renormalisation. -/
theorem d_eq (b : Fin 8) (p q : Fin 2048) :
    val_main_v31 (F := Ideal) x0 x1 x2 x3 x4 (ix3 b p q) = tRow x0 x1 x2 x3 x4 b p + Attn.eps := by
  have e : idx_main_v28 (idx_main_v31 (ix3 b p q)) = ix2 b p :=
    funext fun a => Fin.ext (by match a with | ⟨0, _⟩ => rfl | ⟨1, _⟩ => rfl)
  rw [val_main_v31_apply, val_main_v30_apply, val_main_v28_apply, e, t_eq, val_main_v29_apply, val_main_cst_3_apply]
  rfl

/-- The renormalised weights. -/
theorem w_eq (b : Fin 8) (p q : Fin 2048) :
    val_main_v32 (F := Ideal) x0 x1 x2 x3 x4 (ix3 b p q)
      = Ideal.div (aRow x0 x1 x2 x3 x4 b p q) (tRow x0 x1 x2 x3 x4 b p + Attn.eps) := by
  rw [val_main_v32_apply, a_eq, d_eq]
  rfl

/-- The reference's result, as the generated reading states it operation by operation, is the specification's array. -/
theorem ref_eq (x0 x1 : FVec Ideal S8x2048x1024 .f32) (x2 : FVec Ideal S1024x1024 .f32) (x3 : FVec Ideal S1024 .f32)
    (x4 : IVec S8 32) :
    Cert.ReferenceIdeal.Read.val_main_v33 (F := Ideal) x0 x1 x2 x3 x4 = Attn.G x0 x1 x2 x3 x4 := by
  funext i
  obtain ⟨b, p, h, rfl⟩ : ∃ b p h, i = ix3 b p h := ⟨i 0, i 1, i 2, eq_ix3 i⟩
  have el : ∀ k : Fin 2048, lidx_main_v33 (ix3 b p h) k = ix3 b p k := fun k =>
    funext fun a => Fin.ext (by match a with | ⟨0, _⟩ => rfl | ⟨1, _⟩ => rfl | ⟨2, _⟩ => rfl)
  have er : ∀ k : Fin 2048, ridx_main_v33 (ix3 b p h) k = ix3 b k h := fun k =>
    funext fun a => Fin.ext (by match a with | ⟨0, _⟩ => rfl | ⟨1, _⟩ => rfl | ⟨2, _⟩ => rfl)
  rw [val_main_v33_apply, G_apply]
  simp only [el, er, w_eq]

end Cert.ReferenceIdeal.RefValue

end
-- ==== Proof.Steps.lean ====
/-
  The kernel body's arithmetic, case by case, as pure functions of the blocks it loads and of the running
  statistics it finds in its scratch (m, s, t: one column per query row; acc: one row per query row).

  A key tile that still holds a valid position updates the statistics by validM / validS / validT / validA; a
  fully masked tile by maskedM / maskedS / maskedT / maskedA; the first tile of a row starts from resetM, resetS,
  resetT, resetA; the last tile writes lastOut of the new t, s and acc.
-/
import proofs.«426862_j69552700391693_2_alg».proof.Proof.Gen.KernelIdeal.Skeleton

noncomputable section

namespace Cert.KernelIdeal.Steps

open Cert.KernelIdeal Cert.KernelIdeal.Gen Idealize.ShloMosaic Idealize.SL.Sem

variable {F : FTy → Type} [FloatOps F]

/-- The tile's first key position, as the body computes it from the grid's third coordinate. -/
abbrev tileStart (i : grid0.Coords) : BitVec 32 := Scalar.muli (BitVec.ofNat 32 (i 2).val) 256#32

/-- What the reset at a row's first tile stores. -/
abbrev resetM : FVec F S1024x1 .f32 := k0_pay1
abbrev resetS : FVec F S1024x1 .f32 := k0_pay2
abbrev resetT : FVec F S1024x1 .f32 := k0_pay3
abbrev resetA : FVec F S1024x1024 .f32 := k0_pay4

variable (w : Elt F .i32) (s5 : BitVec 32) (x0 : Vec F S1x1024x1024 .f32) (x1 : Vec F S1x256x1024 .f32)
  (x2 : Vec F S1024x1024 .f32) (x3 : Vec F S1024 .f32)

/-- A tile with a valid key: the new maximum, and the new sums from the old maximum mp and the old sums. -/
def validM (mp : Vec F S1024x1 .f32) : FVec F S1024x1 .f32 := k0_pay5 (k0_pay19 w s5 x0 x1 x2 x3 mp)
def validS (mp sp : Vec F S1024x1 .f32) : FVec F S1024x1 .f32 :=
  k0_pay6 (k0_pay20 w s5 x0 x1 x2 x3 mp mp) (k0_pay22 w s5 x0 x1 x2 x3 mp) sp
def validT (mp tp : Vec F S1024x1 .f32) : FVec F S1024x1 .f32 :=
  k0_pay7 (k0_pay20 w s5 x0 x1 x2 x3 mp mp) (k0_pay24 w s5 x0 x1 x2 x3 mp) tp
def validA (mp : Vec F S1024x1 .f32) (ap : Vec F S1024x1024 .f32) : FVec F S1024x1024 .f32 :=
  k0_pay8 (k0_pay20 w s5 x0 x1 x2 x3 mp mp) (k0_pay25 w s5 x0 x1 x2 x3 mp) ap

/-- A fully masked tile. -/
def maskedM (mp : Vec F S1024x1 .f32) : FVec F S1024x1 .f32 := k0_pay14 mp
def maskedS (mp sp : Vec F S1024x1 .f32) : FVec F S1024x1 .f32 := k0_pay11 mp mp sp
def maskedT (mp tp : Vec F S1024x1 .f32) : FVec F S1024x1 .f32 := k0_pay12 mp mp tp
def maskedA (mp : Vec F S1024x1 .f32) (ap : Vec F S1024x1024 .f32) : FVec F S1024x1024 .f32 := k0_pay13 mp mp ap

/-- The output block the last tile stores, from the new t, s and acc. -/
def lastOut (t s : Vec F S1024x1 .f32) (a : Vec F S1024x1024 .f32) : FVec F S1x1024x1024 .f32 := k0_pay15 t s a

end Cert.KernelIdeal.Steps

end
-- ==== Proof.LenDefs.lean ====
/-
  The prefetched lengths: seq_len as the launch memory holds it, and the word of it the body reads at a grid point.
-/
import proofs.«426862_j69552700391693_2_alg».proof.Proof.Gen.KernelIdeal.Frame.Runs

noncomputable section

namespace Cert.KernelIdeal.Conds

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- seq_len as the launch memory of device c holds it. -/
abbrev lens (c : Dev nD) : S8.Idx → BitVec 32 := m ((c : Thread nD τ).loc main_arg4)

/-- The length word the body (and the key/value index map) reads at a grid point. -/
abbrev lenWord (i : grid0.Coords) : BitVec 32 :=
  tbM0_0.view.readAt (Elt F) (Rect.unit (s := S8) (k0_off1 i) S1.size (k0_off1_inb i)).toLoadRect (tbl m 0)
    (Shape.Idx.first (numel1_S1.symm ▸ Nat.one_pos))

end Cert.KernelIdeal.Conds

end
-- ==== Proof.ScrValid.lean ====
/-
  What a key tile WITH a valid position leaves in the four scratch buffers (m, s, t, acc), and, at a row's last
  tile, in the output block: the body's found pieces read back as the pure update functions of Steps.lean.
-/
import proofs.«426862_j69552700391693_2_alg».proof.Proof.Gen.KernelIdeal.Frame
import proofs.«426862_j69552700391693_2_alg».proof.Proof.Steps
import proofs.«426862_j69552700391693_2_alg».proof.Proof.LenDefs
import Idealize.ShloMosaic.Lib.Pipeline.Value
import Idealize.ShloMosaic.Lib.Tactic

set_option maxRecDepth 16384

noncomputable section

namespace Cert.KernelIdeal.ScrValid

open Cert.KernelIdeal Cert.KernelIdeal.Gen Cert.KernelIdeal.Steps Cert.KernelIdeal.Conds
open Idealize.ShloMosaic Idealize.ShloMosaic.TcCoe Idealize.SL.Sem

variable {F : FTy → Type} [FloatOps F]
/-! ## The found pieces, case by case, over variables of the literal types -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile (0 < ki < 7) with a valid key leaves in scratch buffer 0 the update of what it found there: its one covering store's payload, whose loads read the whole buffers. -/
theorem sF0 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_F_0 c i arg4 harg4 arg5 harg5 arg6 harg6 arg7 harg7 arg8 harg8 arg9 harg9 arg10 harg10 arg11 harg11 arg12 harg12 hc0 hc3 x0 x1 x2 x3 xt0 xs0 xs1 xs2 xs3 hc1 hc2 = validM (tbM0_0.view.readAt (Elt F) (Rect.unit (s := S8) (k0_off1 i) S1.size (k0_off1_inb i)).toLoadRect xt0 (Shape.Idx.first (numel1_S1.symm ▸ Nat.one_pos))) (tileStart i) x0 x1 x2 x3 xs0 := by
  unfold sout0_F_0
  rw [View.read_writes_eq_canon _ _ _ (scover0_F_0 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_F
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A middle tile (0 < ki < 7) with a valid key leaves in scratch buffer 1 the update of what it found there: its one covering store's payload, whose loads read the whole buffers. -/
theorem sF1 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_F_1 c i arg4 harg4 arg5 harg5 arg6 harg6 arg7 harg7 arg8 harg8 arg9 harg9 arg10 harg10 arg11 harg11 arg12 harg12 hc0 hc3 x0 x1 x2 x3 xt0 xs0 xs1 xs2 xs3 hc1 hc2 = validS (tbM0_0.view.readAt (Elt F) (Rect.unit (s := S8) (k0_off1 i) S1.size (k0_off1_inb i)).toLoadRect xt0 (Shape.Idx.first (numel1_S1.symm ▸ Nat.one_pos))) (tileStart i) x0 x1 x2 x3 xs0 xs1 := by
  unfold sout0_F_1
  rw [View.read_writes_eq_canon _ _ _ (scover0_F_1 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_F
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A middle tile (0 < ki < 7) with a valid key leaves in scratch buffer 2 the update of what it found there: its one covering store's payload, whose loads read the whole buffers. -/
theorem sF2 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_F_2 c i arg4 harg4 arg5 harg5 arg6 harg6 arg7 harg7 arg8 harg8 arg9 harg9 arg10 harg10 arg11 harg11 arg12 harg12 hc0 hc3 x0 x1 x2 x3 xt0 xs0 xs1 xs2 xs3 hc1 hc2 = validT (tbM0_0.view.readAt (Elt F) (Rect.unit (s := S8) (k0_off1 i) S1.size (k0_off1_inb i)).toLoadRect xt0 (Shape.Idx.first (numel1_S1.symm ▸ Nat.one_pos))) (tileStart i) x0 x1 x2 x3 xs0 xs2 := by
  unfold sout0_F_2
  rw [View.read_writes_eq_canon _ _ _ (scover0_F_2 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_F
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A middle tile (0 < ki < 7) with a valid key leaves in scratch buffer 3 the update of what it found there: its one covering store's payload, whose loads read the whole buffers. -/
theorem sF3 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_F_3 c i arg4 harg4 arg5 harg5 arg6 harg6 arg7 harg7 arg8 harg8 arg9 harg9 arg10 harg10 arg11 harg11 arg12 harg12 hc0 hc3 x0 x1 x2 x3 xt0 xs0 xs1 xs2 xs3 hc1 hc2 = validA (tbM0_0.view.readAt (Elt F) (Rect.unit (s := S8) (k0_off1 i) S1.size (k0_off1_inb i)).toLoadRect xt0 (Shape.Idx.first (numel1_S1.symm ▸ Nat.one_pos))) (tileStart i) x0 x1 x2 x3 xs0 xs3 := by
  unfold sout0_F_3
  rw [View.read_writes_eq_canon _ _ _ (scover0_F_3 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_F
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A last tile (ki = 7) with a valid key leaves in scratch buffer 0 the update of what it found there: its one covering store's payload. -/
theorem sJ0 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_J_0 c i arg4 harg4 arg5 harg5 arg6 harg6 arg7 harg7 arg8 harg8 arg9 harg9 arg10 harg10 arg11 harg11 arg12 harg12 hc0 hc3 x0 x1 x2 x3 xt0 xs0 xs1 xs2 xs3 hc1 hc2 = validM (tbM0_0.view.readAt (Elt F) (Rect.unit (s := S8) (k0_off1 i) S1.size (k0_off1_inb i)).toLoadRect xt0 (Shape.Idx.first (numel1_S1.symm ▸ Nat.one_pos))) (tileStart i) x0 x1 x2 x3 xs0 := by
  unfold sout0_J_0
  rw [View.read_writes_eq_canon _ _ _ (scover0_J_0 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_J
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A last tile (ki = 7) with a valid key leaves in scratch buffer 1 the update of what it found there: its one covering store's payload. -/
theorem sJ1 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_J_1 c i arg4 harg4 arg5 harg5 arg6 harg6 arg7 harg7 arg8 harg8 arg9 harg9 arg10 harg10 arg11 harg11 arg12 harg12 hc0 hc3 x0 x1 x2 x3 xt0 xs0 xs1 xs2 xs3 hc1 hc2 = validS (tbM0_0.view.readAt (Elt F) (Rect.unit (s := S8) (k0_off1 i) S1.size (k0_off1_inb i)).toLoadRect xt0 (Shape.Idx.first (numel1_S1.symm ▸ Nat.one_pos))) (tileStart i) x0 x1 x2 x3 xs0 xs1 := by
  unfold sout0_J_1
  rw [View.read_writes_eq_canon _ _ _ (scover0_J_1 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_J
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A last tile (ki = 7) with a valid key leaves in scratch buffer 2 the update of what it found there: its one covering store's payload. -/
theorem sJ2 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_J_2 c i arg4 harg4 arg5 harg5 arg6 harg6 arg7 harg7 arg8 harg8 arg9 harg9 arg10 harg10 arg11 harg11 arg12 harg12 hc0 hc3 x0 x1 x2 x3 xt0 xs0 xs1 xs2 xs3 hc1 hc2 = validT (tbM0_0.view.readAt (Elt F) (Rect.unit (s := S8) (k0_off1 i) S1.size (k0_off1_inb i)).toLoadRect xt0 (Shape.Idx.first (numel1_S1.symm ▸ Nat.one_pos))) (tileStart i) x0 x1 x2 x3 xs0 xs2 := by
  unfold sout0_J_2
  rw [View.read_writes_eq_canon _ _ _ (scover0_J_2 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_J
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A last tile (ki = 7) with a valid key leaves in scratch buffer 3 the update of what it found there: its one covering store's payload. -/
theorem sJ3 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_J_3 c i arg4 harg4 arg5 harg5 arg6 harg6 arg7 harg7 arg8 harg8 arg9 harg9 arg10 harg10 arg11 harg11 arg12 harg12 hc0 hc3 x0 x1 x2 x3 xt0 xs0 xs1 xs2 xs3 hc1 hc2 = validA (tbM0_0.view.readAt (Elt F) (Rect.unit (s := S8) (k0_off1 i) S1.size (k0_off1_inb i)).toLoadRect xt0 (Shape.Idx.first (numel1_S1.symm ▸ Nat.one_pos))) (tileStart i) x0 x1 x2 x3 xs0 xs3 := by
  unfold sout0_J_3
  rw [View.read_writes_eq_canon _ _ _ (scover0_J_3 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_J
  dsimp only
  sl_unfold_words
  rw [View.canon_unit_zero hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A first tile (ki = 0) with a valid key leaves in scratch buffer 0 the update of the RESET value: the reset's covering store is read back by the update's loads, and the update's covering store comes last. -/
theorem sB0 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_B_0 c i arg4 harg4 arg5 harg5 arg6 harg6 arg7 harg7 arg8 harg8 arg9 harg9 arg10 harg10 arg11 harg11 arg12 harg12 hc0 hc3 x0 x1 x2 x3 xt0 hc1 hc2 = validM (tbM0_0.view.readAt (Elt F) (Rect.unit (s := S8) (k0_off1 i) S1.size (k0_off1_inb i)).toLoadRect xt0 (Shape.Idx.first (numel1_S1.symm ▸ Nat.one_pos))) (tileStart i) x0 x1 x2 x3 resetM := by
  unfold sout0_B_0
  rw [View.read_writes_eq_canon _ _ _ (scover0_B_0 c i arg4 harg4 arg5 harg5 arg6 harg6 arg7 harg7 arg8 harg8 arg9 harg9 arg10 harg10 arg11 harg11 arg12 harg12 hc0 hc3 x0 x1 x2 x3 xt0 hc1 hc2)]
  unfold kernelRun0_B
  dsimp only
  sl_unfold_words
  rw [View.canon_cons_unit_zero (S := S1024x1) hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A first tile (ki = 0) with a valid key leaves in scratch buffer 1 the update of the RESET value: the reset's covering store is read back by the update's loads, and the update's covering store comes last. -/
theorem sB1 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_B_1 c i arg4 harg4 arg5 harg5 arg6 harg6 arg7 harg7 arg8 harg8 arg9 harg9 arg10 harg10 arg11 harg11 arg12 harg12 hc0 hc3 x0 x1 x2 x3 xt0 hc1 hc2 = validS (tbM0_0.view.readAt (Elt F) (Rect.unit (s := S8) (k0_off1 i) S1.size (k0_off1_inb i)).toLoadRect xt0 (Shape.Idx.first (numel1_S1.symm ▸ Nat.one_pos))) (tileStart i) x0 x1 x2 x3 resetM resetS := by
  unfold sout0_B_1
  rw [View.read_writes_eq_canon _ _ _ (scover0_B_1 c i arg4 harg4 arg5 harg5 arg6 harg6 arg7 harg7 arg8 harg8 arg9 harg9 arg10 harg10 arg11 harg11 arg12 harg12 hc0 hc3 x0 x1 x2 x3 xt0 hc1 hc2)]
  unfold kernelRun0_B
  dsimp only
  sl_unfold_words
  rw [View.canon_cons_unit_zero (S := S1024x1) hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A first tile (ki = 0) with a valid key leaves in scratch buffer 2 the update of the RESET value: the reset's covering store is read back by the update's loads, and the update's covering store comes last. -/
theorem sB2 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_B_2 c i arg4 harg4 arg5 harg5 arg6 harg6 arg7 harg7 arg8 harg8 arg9 harg9 arg10 harg10 arg11 harg11 arg12 harg12 hc0 hc3 x0 x1 x2 x3 xt0 hc1 hc2 = validT (tbM0_0.view.readAt (Elt F) (Rect.unit (s := S8) (k0_off1 i) S1.size (k0_off1_inb i)).toLoadRect xt0 (Shape.Idx.first (numel1_S1.symm ▸ Nat.one_pos))) (tileStart i) x0 x1 x2 x3 resetM resetT := by
  unfold sout0_B_2
  rw [View.read_writes_eq_canon _ _ _ (scover0_B_2 c i arg4 harg4 arg5 harg5 arg6 harg6 arg7 harg7 arg8 harg8 arg9 harg9 arg10 harg10 arg11 harg11 arg12 harg12 hc0 hc3 x0 x1 x2 x3 xt0 hc1 hc2)]
  unfold kernelRun0_B
  dsimp only
  sl_unfold_words
  rw [View.canon_cons_unit_zero (S := S1024x1) hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A first tile (ki = 0) with a valid key leaves in scratch buffer 3 the update of the RESET value: the reset's covering store is read back by the update's loads, and the update's covering store comes last. -/
theorem sB3 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    sout0_B_3 c i arg4 harg4 arg5 harg5 arg6 harg6 arg7 harg7 arg8 harg8 arg9 harg9 arg10 harg10 arg11 harg11 arg12 harg12 hc0 hc3 x0 x1 x2 x3 xt0 hc1 hc2 = validA (tbM0_0.view.readAt (Elt F) (Rect.unit (s := S8) (k0_off1 i) S1.size (k0_off1_inb i)).toLoadRect xt0 (Shape.Idx.first (numel1_S1.symm ▸ Nat.one_pos))) (tileStart i) x0 x1 x2 x3 resetM resetA := by
  unfold sout0_B_3
  rw [View.read_writes_eq_canon _ _ _ (scover0_B_3 c i arg4 harg4 arg5 harg5 arg6 harg6 arg7 harg7 arg8 harg8 arg9 harg9 arg10 harg10 arg11 harg11 arg12 harg12 hc0 hc3 x0 x1 x2 x3 xt0 hc1 hc2)]
  unfold kernelRun0_B
  dsimp only
  sl_unfold_words
  rw [View.canon_cons_unit_zero (S := S1024x1024) hz2]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-- A last tile with a valid key stores, into the output block, lastOut of the NEW t, s and acc: the final loads of
    the three scratch buffers come after this tile's own covering stores to them, so they read those stores' payloads. -/
theorem oJ4 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : cond0_1 i (tbM0_0.view.readAt (Elt F) (Rect.unit (s := S8) (k0_off1 i) S1.size (k0_off1_inb i)).toLoadRect xt0 (Shape.Idx.first (numel1_S1.symm ▸ Nat.one_pos)))) (hc2 : ¬cond0_2 i (tbM0_0.view.readAt (Elt F) (Rect.unit (s := S8) (k0_off1 i) S1.size (k0_off1_inb i)).toLoadRect xt0 (Shape.Idx.first (numel1_S1.symm ▸ Nat.one_pos)))) :
    out0_J_4 c i arg4 harg4 arg5 harg5 arg6 harg6 arg7 harg7 arg8 harg8 arg9 harg9 arg10 harg10 arg11 harg11 arg12 harg12 hc0 hc3 x0 x1 x2 x3 xt0 xs0 xs1 xs2 xs3 hc1 hc2 = lastOut (validT (tbM0_0.view.readAt (Elt F) (Rect.unit (s := S8) (k0_off1 i) S1.size (k0_off1_inb i)).toLoadRect xt0 (Shape.Idx.first (numel1_S1.symm ▸ Nat.one_pos))) (tileStart i) x0 x1 x2 x3 xs0 xs2) (validS (tbM0_0.view.readAt (Elt F) (Rect.unit (s := S8) (k0_off1 i) S1.size (k0_off1_inb i)).toLoadRect xt0 (Shape.Idx.first (numel1_S1.symm ▸ Nat.one_pos))) (tileStart i) x0 x1 x2 x3 xs0 xs1) (validA (tbM0_0.view.readAt (Elt F) (Rect.unit (s := S8) (k0_off1 i) S1.size (k0_off1_inb i)).toLoadRect xt0 (Shape.Idx.first (numel1_S1.symm ▸ Nat.one_pos))) (tileStart i) x0 x1 x2 x3 xs0 xs3) := by
  unfold out0_J_4
  rw [View.read_writes_eq_canon _ _ _ (cover0_J_4 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_J
  dsimp only
  sl_unfold_words
  rw [View.canon_unit_zero hz3]
  simp only [View.readAt_eq_ld, harg4.read_unread, harg5.read_unread, harg6.read_unread, harg7.read_unread, harg8.read_unread, harg9.read_unread, harg10.read_unread, harg11.read_unread, harg12.read_unread,
    View.ld_unit_zero (S := S1024x1) hz2, View.ld_unit_zero (S := S1024x1024) hz2, View.ld_unit_zero (S := S1x1024x1024) hz3,
    View.ld_unit_zero (S := S1x256x1024) hz3, View.ld_unit_zero (S := S1024) hz1,
    View.readCov_unit_zero (S := S1024x1) _ hz2, View.readCov_unit_zero (S := S1024x1024) _ hz2, shapeCast_self]
  rfl

/-! ## The grid points -/

variable (m : (ℓ : Loc nD τ sig) → Buf (Elt F) ℓ)

/-- The blocks the windows stage at grid point t, at their literal types. -/
abbrev blkP (hO : Ok m) (c : Dev nD) (t : Fin (cfgM m hO).N) : Vec F S1x1024x1024 .f32 := iblk m hO c 0 t
abbrev blkQ (hO : Ok m) (c : Dev nD) (t : Fin (cfgM m hO).N) : Vec F S1x256x1024 .f32 := iblk m hO c 1 t
abbrev blkW (hO : Ok m) (c : Dev nD) (t : Fin (cfgM m hO).N) : Vec F S1024x1024 .f32 := iblk m hO c 2 t
abbrev blkB (hO : Ok m) (c : Dev nD) (t : Fin (cfgM m hO).N) : Vec F S1024 .f32 := iblk m hO c 3 t

/-- What the point before t left in the outputs and the scratch. -/
abbrev prev (hO : Ok m) (c : Dev nD) (t : Fin (cfgM m hO).N) :=
  outsAt0 m hO c (t.val - 1) (Nat.lt_of_le_of_lt (Nat.sub_le _ _) t.isLt)

/-- A row's first tile (ki = 0): the statistics start from the reset values. -/
theorem scr_first (hO : Ok m) (c : Dev nD) (t : Fin (cfgM m hO).N) (h0 : t.val % 8 = 0)
    (hv : cond0_1 (grid0.coords t) (lenWord m (grid0.coords t)))
    (hn : ¬cond0_2 (grid0.coords t) (lenWord m (grid0.coords t))) :
    (outsAt0 m hO c t.val t.isLt).2
      = (validM (lenWord m (grid0.coords t)) (tileStart (grid0.coords t)) (blkP m hO c t) (blkQ m hO c t) (blkW m hO c t) (blkB m hO c t) resetM,
         validS (lenWord m (grid0.coords t)) (tileStart (grid0.coords t)) (blkP m hO c t) (blkQ m hO c t) (blkW m hO c t) (blkB m hO c t) resetM resetS,
         validT (lenWord m (grid0.coords t)) (tileStart (grid0.coords t)) (blkP m hO c t) (blkQ m hO c t) (blkW m hO c t) (blkB m hO c t) resetM resetT,
         validA (lenWord m (grid0.coords t)) (tileStart (grid0.coords t)) (blkP m hO c t) (blkQ m hO c t) (blkW m hO c t) (blkB m hO c t) resetM resetA) := by
  have h7 : ¬t.val % 8 = 7 := by omega
  rw [outsAt0_B m hO c t h0 hv hn h7]
  dsimp only
  rw [sB0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) ((hcond0_0 t).mpr h0) (fun h => h7 ((hcond0_3 t).mp h)) (iblk m hO c 0 t) (iblk m hO c 1 t) (iblk m hO c 2 t) (iblk m hO c 3 t) (tbl m 0) hv hn,
    sB1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) ((hcond0_0 t).mpr h0) (fun h => h7 ((hcond0_3 t).mp h)) (iblk m hO c 0 t) (iblk m hO c 1 t) (iblk m hO c 2 t) (iblk m hO c 3 t) (tbl m 0) hv hn,
    sB2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) ((hcond0_0 t).mpr h0) (fun h => h7 ((hcond0_3 t).mp h)) (iblk m hO c 0 t) (iblk m hO c 1 t) (iblk m hO c 2 t) (iblk m hO c 3 t) (tbl m 0) hv hn,
    sB3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) ((hcond0_0 t).mpr h0) (fun h => h7 ((hcond0_3 t).mp h)) (iblk m hO c 0 t) (iblk m hO c 1 t) (iblk m hO c 2 t) (iblk m hO c 3 t) (tbl m 0) hv hn]

/-- A later tile (ki > 0) with a valid position: the statistics are updated from what the point before left. -/
theorem scr_valid (hO : Ok m) (c : Dev nD) (t : Fin (cfgM m hO).N) (h0 : ¬t.val % 8 = 0)
    (hv : cond0_1 (grid0.coords t) (lenWord m (grid0.coords t)))
    (hn : ¬cond0_2 (grid0.coords t) (lenWord m (grid0.coords t))) :
    (outsAt0 m hO c t.val t.isLt).2
      = (validM (lenWord m (grid0.coords t)) (tileStart (grid0.coords t)) (blkP m hO c t) (blkQ m hO c t) (blkW m hO c t) (blkB m hO c t) (prev m hO c t).2.1,
         validS (lenWord m (grid0.coords t)) (tileStart (grid0.coords t)) (blkP m hO c t) (blkQ m hO c t) (blkW m hO c t) (blkB m hO c t) (prev m hO c t).2.1 (prev m hO c t).2.2.1,
         validT (lenWord m (grid0.coords t)) (tileStart (grid0.coords t)) (blkP m hO c t) (blkQ m hO c t) (blkW m hO c t) (blkB m hO c t) (prev m hO c t).2.1 (prev m hO c t).2.2.2.1,
         validA (lenWord m (grid0.coords t)) (tileStart (grid0.coords t)) (blkP m hO c t) (blkQ m hO c t) (blkW m hO c t) (blkB m hO c t) (prev m hO c t).2.1 (prev m hO c t).2.2.2.2) := by
  by_cases h7 : t.val % 8 = 7
  · rw [outsAt0_J m hO c t h0 hv hn h7]
    dsimp only
    rw [sJ0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn,
      sJ1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn,
      sJ2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn,
      sJ3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn]
  · rw [outsAt0_F m hO c t h0 hv hn h7]
    dsimp only
    rw [sF0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) (fun h => h7 ((hcond0_3 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn,
      sF1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) (fun h => h7 ((hcond0_3 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn,
      sF2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) (fun h => h7 ((hcond0_3 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn,
      sF3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) (fun h => h7 ((hcond0_3 t).mp h)) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn]

/-- A row's last tile (ki = 7) with a valid position: the output block is lastOut of the NEW t, s and acc. -/
theorem out_last_valid (hO : Ok m) (c : Dev nD) (t : Fin (cfgM m hO).N) (h7 : t.val % 8 = 7)
    (hv : cond0_1 (grid0.coords t) (lenWord m (grid0.coords t)))
    (hn : ¬cond0_2 (grid0.coords t) (lenWord m (grid0.coords t))) :
    (outsAt0 m hO c t.val t.isLt).1
      = lastOut (outsAt0 m hO c t.val t.isLt).2.2.2.1 (outsAt0 m hO c t.val t.isLt).2.2.1 (outsAt0 m hO c t.val t.isLt).2.2.2.2 := by
  have h0 : ¬t.val % 8 = 0 := by omega
  rw [outsAt0_J m hO c t h0 hv hn h7]
  dsimp only
  rw [oJ4 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn,
    sJ1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn,
    sJ2 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn,
    sJ3 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2.1 (outsAt0 m hO c (t.val - 1) (Nat.lt_of_le_of_lt (Nat.sub_le _ _) t.isLt)).2.2.2.1 (outsAt0 m hO c (t.val - 1) (Nat.lt_of_le_of_lt (Nat.sub_le _ _) t.isLt)).2.2.2.2 hv hn]

end Cert.KernelIdeal.ScrValid

end
-- ==== Proof.ScrMasked.lean ====
/-
  What a FULLY MASKED key tile leaves in the four scratch buffers (m, s, t, acc), and, at a row's last tile, in
  the output block: the body's found pieces read back as the pure update functions of Steps.lean.

  In a masked tile the body loads the entry contents of m, s, t and acc, stores the updated s, t and acc and, last,
  the updated m: each scratch buffer ends with ONE covering piece whose payload is the update applied to the entry
  contents. At a row's last tile the output block is stored from loads of t, s and acc made after those stores.
-/
import proofs.«426862_j69552700391693_2_alg».proof.Proof.Gen.KernelIdeal.Frame
import proofs.«426862_j69552700391693_2_alg».proof.Proof.Steps
import proofs.«426862_j69552700391693_2_alg».proof.Proof.LenDefs
import Idealize.ShloMosaic.Lib.Pipeline.Value
import Idealize.ShloMosaic.Lib.Tactic

set_option maxRecDepth 16384

noncomputable section

namespace Cert.KernelIdeal.ScrMasked

open Cert.KernelIdeal Cert.KernelIdeal.Gen Cert.KernelIdeal.Steps Cert.KernelIdeal.Conds
open Idealize.ShloMosaic Idealize.ShloMosaic.TcCoe Idealize.SL.Sem

variable {F : FTy → Type} [FloatOps F]

/-- The zero offsets of a rank-2 and of a rank-3 store, as constant functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- Case G, scratch m: the one covering store's payload over the entry contents is the new maximum. -/
theorem sG0 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : ¬cond0_1 i (tbM0_0.view.readAt (Elt F) (Rect.unit (s := S8) (k0_off1 i) S1.size (k0_off1_inb i)).toLoadRect xt0 (Shape.Idx.first (numel1_S1.symm ▸ Nat.one_pos)))) (hc2 : cond0_2 i (tbM0_0.view.readAt (Elt F) (Rect.unit (s := S8) (k0_off1 i) S1.size (k0_off1_inb i)).toLoadRect xt0 (Shape.Idx.first (numel1_S1.symm ▸ Nat.one_pos)))) :
    sout0_G_0 c i arg4 harg4 arg5 harg5 arg6 harg6 arg7 harg7 arg8 harg8 arg9 harg9 arg10 harg10 arg11 harg11 arg12 harg12 hc0 hc3 x0 x1 x2 x3 xt0 xs0 xs1 xs2 xs3 hc1 hc2 = maskedM xs0 := by
  unfold sout0_G_0
  rw [View.read_writes_eq_canon _ _ _ (scover0_G_0 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_G
  dsimp only
  sl_unfold_words
  rw [View.canon_unit_zero hz2]
  simp only [View.readAt_eq_ld, harg9.read_unread, View.ld_unit_zero (S := S1024x1) hz2, shapeCast_self]
  rfl

/-- Case G, scratch s: the one covering store's payload over the entry contents is the new full sum. -/
theorem sG1 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : ¬cond0_1 i (tbM0_0.view.readAt (Elt F) (Rect.unit (s := S8) (k0_off1 i) S1.size (k0_off1_inb i)).toLoadRect xt0 (Shape.Idx.first (numel1_S1.symm ▸ Nat.one_pos)))) (hc2 : cond0_2 i (tbM0_0.view.readAt (Elt F) (Rect.unit (s := S8) (k0_off1 i) S1.size (k0_off1_inb i)).toLoadRect xt0 (Shape.Idx.first (numel1_S1.symm ▸ Nat.one_pos)))) :
    sout0_G_1 c i arg4 harg4 arg5 harg5 arg6 harg6 arg7 harg7 arg8 harg8 arg9 harg9 arg10 harg10 arg11 harg11 arg12 harg12 hc0 hc3 x0 x1 x2 x3 xt0 xs0 xs1 xs2 xs3 hc1 hc2 = maskedS xs0 xs1 := by
  unfold sout0_G_1
  rw [View.read_writes_eq_canon _ _ _ (scover0_G_1 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_G
  dsimp only
  sl_unfold_words
  rw [View.canon_unit_zero hz2]
  simp only [View.readAt_eq_ld, harg9.read_unread, harg10.read_unread, View.ld_unit_zero (S := S1024x1) hz2, shapeCast_self]
  rfl

/-- Case G, scratch t: the one covering store's payload over the entry contents is the new valid sum. -/
theorem sG2 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : ¬cond0_1 i (tbM0_0.view.readAt (Elt F) (Rect.unit (s := S8) (k0_off1 i) S1.size (k0_off1_inb i)).toLoadRect xt0 (Shape.Idx.first (numel1_S1.symm ▸ Nat.one_pos)))) (hc2 : cond0_2 i (tbM0_0.view.readAt (Elt F) (Rect.unit (s := S8) (k0_off1 i) S1.size (k0_off1_inb i)).toLoadRect xt0 (Shape.Idx.first (numel1_S1.symm ▸ Nat.one_pos)))) :
    sout0_G_2 c i arg4 harg4 arg5 harg5 arg6 harg6 arg7 harg7 arg8 harg8 arg9 harg9 arg10 harg10 arg11 harg11 arg12 harg12 hc0 hc3 x0 x1 x2 x3 xt0 xs0 xs1 xs2 xs3 hc1 hc2 = maskedT xs0 xs2 := by
  unfold sout0_G_2
  rw [View.read_writes_eq_canon _ _ _ (scover0_G_2 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_G
  dsimp only
  sl_unfold_words
  rw [View.canon_unit_zero hz2]
  simp only [View.readAt_eq_ld, harg9.read_unread, harg11.read_unread, View.ld_unit_zero (S := S1024x1) hz2, shapeCast_self]
  rfl

/-- Case G, scratch acc: the one covering store's payload over the entry contents is the new weighted sum. -/
theorem sG3 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : ¬cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : ¬cond0_1 i (tbM0_0.view.readAt (Elt F) (Rect.unit (s := S8) (k0_off1 i) S1.size (k0_off1_inb i)).toLoadRect xt0 (Shape.Idx.first (numel1_S1.symm ▸ Nat.one_pos)))) (hc2 : cond0_2 i (tbM0_0.view.readAt (Elt F) (Rect.unit (s := S8) (k0_off1 i) S1.size (k0_off1_inb i)).toLoadRect xt0 (Shape.Idx.first (numel1_S1.symm ▸ Nat.one_pos)))) :
    sout0_G_3 c i arg4 harg4 arg5 harg5 arg6 harg6 arg7 harg7 arg8 harg8 arg9 harg9 arg10 harg10 arg11 harg11 arg12 harg12 hc0 hc3 x0 x1 x2 x3 xt0 xs0 xs1 xs2 xs3 hc1 hc2 = maskedA xs0 xs3 := by
  unfold sout0_G_3
  rw [View.read_writes_eq_canon _ _ _ (scover0_G_3 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_G
  dsimp only
  sl_unfold_words
  rw [View.canon_unit_zero hz2]
  simp only [View.readAt_eq_ld, harg9.read_unread, harg12.read_unread, View.ld_unit_zero (S := S1024x1) hz2, View.ld_unit_zero (S := S1024x1024) hz2, shapeCast_self]
  rfl

/-- Case K, scratch m: the one covering store's payload over the entry contents is the new maximum. -/
theorem sK0 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : ¬cond0_1 i (tbM0_0.view.readAt (Elt F) (Rect.unit (s := S8) (k0_off1 i) S1.size (k0_off1_inb i)).toLoadRect xt0 (Shape.Idx.first (numel1_S1.symm ▸ Nat.one_pos)))) (hc2 : cond0_2 i (tbM0_0.view.readAt (Elt F) (Rect.unit (s := S8) (k0_off1 i) S1.size (k0_off1_inb i)).toLoadRect xt0 (Shape.Idx.first (numel1_S1.symm ▸ Nat.one_pos)))) :
    sout0_K_0 c i arg4 harg4 arg5 harg5 arg6 harg6 arg7 harg7 arg8 harg8 arg9 harg9 arg10 harg10 arg11 harg11 arg12 harg12 hc0 hc3 x0 x1 x2 x3 xt0 xs0 xs1 xs2 xs3 hc1 hc2 = maskedM xs0 := by
  unfold sout0_K_0
  rw [View.read_writes_eq_canon _ _ _ (scover0_K_0 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_K
  dsimp only
  sl_unfold_words
  rw [View.canon_unit_zero hz2]
  simp only [View.readAt_eq_ld, harg9.read_unread, View.ld_unit_zero (S := S1024x1) hz2, shapeCast_self]
  rfl

/-- Case K, scratch s: the one covering store's payload over the entry contents is the new full sum. -/
theorem sK1 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : ¬cond0_1 i (tbM0_0.view.readAt (Elt F) (Rect.unit (s := S8) (k0_off1 i) S1.size (k0_off1_inb i)).toLoadRect xt0 (Shape.Idx.first (numel1_S1.symm ▸ Nat.one_pos)))) (hc2 : cond0_2 i (tbM0_0.view.readAt (Elt F) (Rect.unit (s := S8) (k0_off1 i) S1.size (k0_off1_inb i)).toLoadRect xt0 (Shape.Idx.first (numel1_S1.symm ▸ Nat.one_pos)))) :
    sout0_K_1 c i arg4 harg4 arg5 harg5 arg6 harg6 arg7 harg7 arg8 harg8 arg9 harg9 arg10 harg10 arg11 harg11 arg12 harg12 hc0 hc3 x0 x1 x2 x3 xt0 xs0 xs1 xs2 xs3 hc1 hc2 = maskedS xs0 xs1 := by
  unfold sout0_K_1
  rw [View.read_writes_eq_canon _ _ _ (scover0_K_1 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_K
  dsimp only
  sl_unfold_words
  rw [View.canon_unit_zero hz2]
  simp only [View.readAt_eq_ld, harg9.read_unread, harg10.read_unread, View.ld_unit_zero (S := S1024x1) hz2, shapeCast_self]
  rfl

/-- Case K, scratch t: the one covering store's payload over the entry contents is the new valid sum. -/
theorem sK2 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : ¬cond0_1 i (tbM0_0.view.readAt (Elt F) (Rect.unit (s := S8) (k0_off1 i) S1.size (k0_off1_inb i)).toLoadRect xt0 (Shape.Idx.first (numel1_S1.symm ▸ Nat.one_pos)))) (hc2 : cond0_2 i (tbM0_0.view.readAt (Elt F) (Rect.unit (s := S8) (k0_off1 i) S1.size (k0_off1_inb i)).toLoadRect xt0 (Shape.Idx.first (numel1_S1.symm ▸ Nat.one_pos)))) :
    sout0_K_2 c i arg4 harg4 arg5 harg5 arg6 harg6 arg7 harg7 arg8 harg8 arg9 harg9 arg10 harg10 arg11 harg11 arg12 harg12 hc0 hc3 x0 x1 x2 x3 xt0 xs0 xs1 xs2 xs3 hc1 hc2 = maskedT xs0 xs2 := by
  unfold sout0_K_2
  rw [View.read_writes_eq_canon _ _ _ (scover0_K_2 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_K
  dsimp only
  sl_unfold_words
  rw [View.canon_unit_zero hz2]
  simp only [View.readAt_eq_ld, harg9.read_unread, harg11.read_unread, View.ld_unit_zero (S := S1024x1) hz2, shapeCast_self]
  rfl

/-- Case K, scratch acc: the one covering store's payload over the entry contents is the new weighted sum. -/
theorem sK3 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : ¬cond0_1 i (tbM0_0.view.readAt (Elt F) (Rect.unit (s := S8) (k0_off1 i) S1.size (k0_off1_inb i)).toLoadRect xt0 (Shape.Idx.first (numel1_S1.symm ▸ Nat.one_pos)))) (hc2 : cond0_2 i (tbM0_0.view.readAt (Elt F) (Rect.unit (s := S8) (k0_off1 i) S1.size (k0_off1_inb i)).toLoadRect xt0 (Shape.Idx.first (numel1_S1.symm ▸ Nat.one_pos)))) :
    sout0_K_3 c i arg4 harg4 arg5 harg5 arg6 harg6 arg7 harg7 arg8 harg8 arg9 harg9 arg10 harg10 arg11 harg11 arg12 harg12 hc0 hc3 x0 x1 x2 x3 xt0 xs0 xs1 xs2 xs3 hc1 hc2 = maskedA xs0 xs3 := by
  unfold sout0_K_3
  rw [View.read_writes_eq_canon _ _ _ (scover0_K_3 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_K
  dsimp only
  sl_unfold_words
  rw [View.canon_unit_zero hz2]
  simp only [View.readAt_eq_ld, harg9.read_unread, harg12.read_unread, View.ld_unit_zero (S := S1024x1) hz2, View.ld_unit_zero (S := S1024x1024) hz2, shapeCast_self]
  rfl

/-- Case K, the output block: the final store's payload reads t, s and acc AFTER this point's own stores into them,
    so it is the quotient built from the NEW sums. -/
theorem oK4 (c : Dev nD) (i : grid0.Coords) (arg4 : Memref sig .tc .vmem S1x1024x1024 .f32) (harg4 : arg4.IsWhole) (arg5 : Memref sig .tc .vmem S1x256x1024 .f32) (harg5 : arg5.IsWhole) (arg6 : Memref sig .tc .vmem S1024x1024 .f32) (harg6 : arg6.IsWhole) (arg7 : Memref sig .tc .vmem S1024 .f32) (harg7 : arg7.IsWhole) (arg8 : Memref sig .tc .vmem S1x1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x1024 .f32) (harg12 : arg12.IsWhole) (hc0 : ¬cond0_0 i) (hc3 : cond0_3 i)
    (x0 : Vec F S1x1024x1024 .f32) (x1 : Vec F S1x256x1024 .f32) (x2 : Vec F S1024x1024 .f32) (x3 : Vec F S1024 .f32) (xt0 : TbBuf0 (F := F) c tbM0_0) (xs0 : Vec F S1024x1 .f32) (xs1 : Vec F S1024x1 .f32) (xs2 : Vec F S1024x1 .f32) (xs3 : Vec F S1024x1024 .f32) (hc1 : ¬cond0_1 i (tbM0_0.view.readAt (Elt F) (Rect.unit (s := S8) (k0_off1 i) S1.size (k0_off1_inb i)).toLoadRect xt0 (Shape.Idx.first (numel1_S1.symm ▸ Nat.one_pos)))) (hc2 : cond0_2 i (tbM0_0.view.readAt (Elt F) (Rect.unit (s := S8) (k0_off1 i) S1.size (k0_off1_inb i)).toLoadRect xt0 (Shape.Idx.first (numel1_S1.symm ▸ Nat.one_pos)))) :
    out0_K_4 c i arg4 harg4 arg5 harg5 arg6 harg6 arg7 harg7 arg8 harg8 arg9 harg9 arg10 harg10 arg11 harg11 arg12 harg12 hc0 hc3 x0 x1 x2 x3 xt0 xs0 xs1 xs2 xs3 hc1 hc2 = lastOut (maskedT xs0 xs2) (maskedS xs0 xs1) (maskedA xs0 xs3) := by
  unfold out0_K_4
  rw [View.read_writes_eq_canon _ _ _ (cover0_K_4 c i arg4 harg4 arg5 harg5 arg6 harg6 arg7 harg7 arg8 harg8 arg9 harg9 arg10 harg10 arg11 harg11 arg12 harg12 hc0 hc3 x0 x1 x2 x3 xt0 xs0 xs1 xs2 xs3 hc1 hc2)]
  unfold kernelRun0_K
  dsimp only
  sl_unfold_words
  rw [View.canon_unit_zero hz3]
  simp only [View.readAt_eq_ld, harg9.read_unread, harg10.read_unread, harg11.read_unread, harg12.read_unread,
    View.ld_unit_zero (S := S1024x1) hz2, View.ld_unit_zero (S := S1024x1024) hz2,
    View.readCov_unit_zero (S := S1024x1) _ hz2, View.readCov_unit_zero (S := S1024x1024) _ hz2, shapeCast_self]
  rfl

variable (m : (ℓ : Loc nD τ sig) → Buf (Elt F) ℓ)

/-- The blocks the windows stage at grid point t, at their literal types. -/
abbrev blkP (hO : Ok m) (c : Dev nD) (t : Fin (cfgM m hO).N) : Vec F S1x1024x1024 .f32 := iblk m hO c 0 t
abbrev blkQ (hO : Ok m) (c : Dev nD) (t : Fin (cfgM m hO).N) : Vec F S1x256x1024 .f32 := iblk m hO c 1 t
abbrev blkW (hO : Ok m) (c : Dev nD) (t : Fin (cfgM m hO).N) : Vec F S1024x1024 .f32 := iblk m hO c 2 t
abbrev blkB (hO : Ok m) (c : Dev nD) (t : Fin (cfgM m hO).N) : Vec F S1024 .f32 := iblk m hO c 3 t

/-- What the point before t left in the outputs and the scratch. -/
abbrev prev (hO : Ok m) (c : Dev nD) (t : Fin (cfgM m hO).N) :=
  outsAt0 m hO c (t.val - 1) (Nat.lt_of_le_of_lt (Nat.sub_le _ _) t.isLt)

/-- A later tile (ki > 0) all of whose positions are masked. -/
theorem scr_masked (hO : Ok m) (c : Dev nD) (t : Fin (cfgM m hO).N) (h0 : ¬t.val % 8 = 0)
    (hv : ¬cond0_1 (grid0.coords t) (lenWord m (grid0.coords t)))
    (hn : cond0_2 (grid0.coords t) (lenWord m (grid0.coords t))) :
    (outsAt0 m hO c t.val t.isLt).2
      = (maskedM (prev m hO c t).2.1, maskedS (prev m hO c t).2.1 (prev m hO c t).2.2.1,
         maskedT (prev m hO c t).2.1 (prev m hO c t).2.2.2.1, maskedA (prev m hO c t).2.1 (prev m hO c t).2.2.2.2) := by
  by_cases h7 : t.val % 8 = 7
  · rw [outsAt0_K m hO c t h0 hv hn h7]
    dsimp only
    rw [sK0 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn,
      sK1 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn,
      sK2 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn,
      sK3 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn]
  · rw [outsAt0_G m hO c t h0 hv hn h7]
    dsimp only
    rw [sG0 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) (fun h => h7 ((hcond0_3 t).mp h)) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn,
      sG1 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) (fun h => h7 ((hcond0_3 t).mp h)) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn,
      sG2 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) (fun h => h7 ((hcond0_3 t).mp h)) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn,
      sG3 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) (fun h => h7 ((hcond0_3 t).mp h)) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn]

/-- A row's last tile (ki = 7), fully masked: the output block is lastOut of the NEW t, s and acc. -/
theorem out_last_masked (hO : Ok m) (c : Dev nD) (t : Fin (cfgM m hO).N) (h7 : t.val % 8 = 7)
    (hv : ¬cond0_1 (grid0.coords t) (lenWord m (grid0.coords t)))
    (hn : cond0_2 (grid0.coords t) (lenWord m (grid0.coords t))) :
    (outsAt0 m hO c t.val t.isLt).1
      = lastOut (outsAt0 m hO c t.val t.isLt).2.2.2.1 (outsAt0 m hO c t.val t.isLt).2.2.1 (outsAt0 m hO c t.val t.isLt).2.2.2.2 := by
  have h0 : ¬t.val % 8 = 0 := by omega
  rw [outsAt0_K m hO c t h0 hv hn h7]
  dsimp only
  rw [oK4 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn,
    sK1 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn,
    sK2 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn,
    sK3 (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) scM0_0 (Memref.isWhole_whole _) scM0_1 (Memref.isWhole_whole _) scM0_2 (Memref.isWhole_whole _) scM0_3 (Memref.isWhole_whole _) (fun h => h0 ((hcond0_0 t).mp h)) ((hcond0_3 t).mpr h7) (iblk m hO c 0 t) (iblk m hO c 1 t) (iblk m hO c 2 t) (iblk m hO c 3 t) (tbl m 0) (prev m hO c t).2.1 (prev m hO c t).2.2.1 (prev m hO c t).2.2.2.1 (prev m hO c t).2.2.2.2 hv hn]

end Cert.KernelIdeal.ScrMasked

end
-- ==== Proof.TileDefs.lean ====
/-
  One key tile, index by index: the score of query row r of the staged proj_p block against key j of the staged
  proj_q block (through the linear layer W_t, b_t), and the tile's 0/1 mask at key j.
-/
import proofs.«426862_j69552700391693_2_alg».proof.Proof.Steps
import proofs.«426862_j69552700391693_2_alg».proof.Proof.SoftmaxDefs
import Idealize.ShloMosaic.Lib.ValueIdx

noncomputable section

namespace Cert.KernelIdeal.Tile

open Cert.KernelIdeal Cert.KernelIdeal.Gen Idealize.ShloMosaic Idealize.ShloMosaic.ValueIdx

/-- scores[r, j] of the tile: sum over o of p[r, o] * ((sum over h of q[j, h] * W_t[o, h]) + b_t[o]). -/
def tileScore (x0 : Vec Ideal S1x1024x1024 .f32) (x1 : Vec Ideal S1x256x1024 .f32) (x2 : Vec Ideal S1024x1024 .f32)
    (x3 : Vec Ideal S1024 .f32) (r : Fin 1024) (j : Fin 256) : EReal :=
  ∑ o : Fin 1024, x0 (ix3 (0 : Fin 1) r o) * ((∑ h : Fin 1024, x1 (ix3 (0 : Fin 1) j h) * x2 (ix2 o h)) + x3 (ix1 o))

/-- The tile's mask at key j: 1 when (tile start + j) < length, as signed words. -/
def tileMask (w s5 : BitVec 32) (j : Fin 256) : EReal :=
  if (s5 + BitVec.ofNat 32 j.val).slt w then 1 else 0

end Cert.KernelIdeal.Tile

end
-- ==== Proof.PayValid.lean ====
/-
  A tile with a valid key, read at one query row r and one output column h: the body's update of the running
  statistics is Attn.stepV of the tile's masked scores, its mask and the value column.
-/
import proofs.«426862_j69552700391693_2_alg».proof.Proof.TileDefs
import Idealize.ShloMosaic.Lib.Pipeline.Value
import Idealize.ShloMosaic.Lib.ValueLayout
import Idealize.ShloMosaic.PureOps.Ideal.Laws

noncomputable section

namespace Cert.KernelIdeal.PayValid

open Cert.KernelIdeal Cert.KernelIdeal.Gen Cert.KernelIdeal.Steps Cert.KernelIdeal.Tile
open Idealize.ShloMosaic Idealize.ShloMosaic.ValueIdx

/-! ## The mask at an index -/

/-- The tile's mask, read at (r, j): 1 when the key position (tile start + j) is below the length, else 0. -/
theorem pay17_at (w s5 : BitVec 32) (r : Fin 1024) (j : Fin 256) :
    k0_pay17 (F := Ideal) w s5 (ix2 r j) = tileMask w s5 j := by
  have hi : iota .tc S1024x256 32 [1] iota_S1024x256_d1_w32 (ix2 r j) = BitVec.ofNat 32 j.val :=
    iota_single_apply .tc S1024x256 32 1 iota_S1024x256_d1_w32 (ix2 r j)
  show ((((IntOp.cmpi .slt (IntOp.addi s5 (iota .tc S1024x256 32 [1] iota_S1024x256_d1_w32 (ix2 r j))) w).setWidth
    32).toInt : ℝ) : EReal) = _
  rw [hi]
  unfold tileMask IntOp.cmpi IntOp.addi
  by_cases h : (s5 + BitVec.ofNat 32 j.val).slt w
  · simp [h]
  · simp [h]

/-! ## The three products at an index -/

theorem lhs_qw_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs_qw_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs_qw_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs_qw_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The first product (the keys through the linear layer's weight) at (j, o): the sum over k of l[j, k] * w[o, k]. -/
theorem mm_qw_apply {φ₁ φ₂ : FTy} (l : FVec Ideal S256x1024 φ₁) (rr : FVec Ideal S1024x1024 φ₂) (j : Fin 256) (o : Fin 1024) :
    FloatOps.matmul dot_S256x1024_S1024x1024_S256x1024_1_1_0_0_n_n none l rr (constant (F := Ideal) S256x1024 .f32 0x00000000#32) (ix2 j o)
      = ∑ k : Fin 1024, l (ix2 j k) * rr (ix2 o k) := by
  rw [Ideal.matmul_constant_zero_apply, ← Equiv.sum_comp (ValueIdx.contrEquiv1 dot_S256x1024_S1024x1024_S256x1024_1_1_0_0_n_n 1024 rfl rfl).symm]
  refine Finset.sum_congr rfl fun k _ => ?_
  have hk := ValueIdx.contrEquiv1_symm_val dot_S256x1024_S1024x1024_S256x1024_1_1_0_0_n_n 1024 rfl rfl k
  have el : dot_S256x1024_S1024x1024_S256x1024_1_1_0_0_n_n.lhsIdx (ix2 j o) ((ValueIdx.contrEquiv1 dot_S256x1024_S1024x1024_S256x1024_1_1_0_0_n_n 1024 rfl rfl).symm k) = ix2 j k := funext fun a => Fin.ext (by
    match a with
    | ⟨0, _⟩ => exact lhs_qw_0 _ _
    | ⟨1, _⟩ => exact (lhs_qw_1 _ _).trans hk)
  have er : dot_S256x1024_S1024x1024_S256x1024_1_1_0_0_n_n.rhsIdx (ix2 j o) ((ValueIdx.contrEquiv1 dot_S256x1024_S1024x1024_S256x1024_1_1_0_0_n_n 1024 rfl rfl).symm k) = ix2 o k := funext fun a => Fin.ext (by
    match a with
    | ⟨0, _⟩ => exact rhs_qw_0 _ _
    | ⟨1, _⟩ => exact (rhs_qw_1 _ _).trans hk)
  rw [el, er]

theorem lhs_pk_0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
theorem lhs_pk_1 (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
theorem rhs_pk_0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
theorem rhs_pk_1 (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q

/-- The second product (queries against the transformed keys) at (r, j): the sum over k of l[r, k] * t[j, k]. -/
theorem mm_pk_apply {φ₁ φ₂ : FTy} (l : FVec Ideal S1024x1024 φ₁) (rr : FVec Ideal S256x1024 φ₂) (r : Fin 1024) (j : Fin 256) :
    FloatOps.matmul dot_S1024x1024_S256x1024_S1024x256_1_1_0_0_n_n none l rr (constant (F := Ideal) S1024x256 .f32 0x00000000#32) (ix2 r j)
      = ∑ k : Fin 1024, l (ix2 r k) * rr (ix2 j k) := by
  rw [Ideal.matmul_constant_zero_apply, ← Equiv.sum_comp (ValueIdx.contrEquiv1 dot_S1024x1024_S256x1024_S1024x256_1_1_0_0_n_n 1024 rfl rfl).symm]
  refine Finset.sum_congr rfl fun k _ => ?_
  have hk := ValueIdx.contrEquiv1_symm_val dot_S1024x1024_S256x1024_S1024x256_1_1_0_0_n_n 1024 rfl rfl k
  have el : dot_S1024x1024_S256x1024_S1024x256_1_1_0_0_n_n.lhsIdx (ix2 r j) ((ValueIdx.contrEquiv1 dot_S1024x1024_S256x1024_S1024x256_1_1_0_0_n_n 1024 rfl rfl).symm k) = ix2 r k := funext fun a => Fin.ext (by
    match a with
    | ⟨0, _⟩ => exact lhs_pk_0 _ _
    | ⟨1, _⟩ => exact (lhs_pk_1 _ _).trans hk)
  have er : dot_S1024x1024_S256x1024_S1024x256_1_1_0_0_n_n.rhsIdx (ix2 r j) ((ValueIdx.contrEquiv1 dot_S1024x1024_S256x1024_S1024x256_1_1_0_0_n_n 1024 rfl rfl).symm k) = ix2 j k := funext fun a => Fin.ext (by
    match a with
    | ⟨0, _⟩ => exact rhs_pk_0 _ _
    | ⟨1, _⟩ => exact (rhs_pk_1 _ _).trans hk)
  rw [el, er]

theorem lhs_pv_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_pv_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_pv_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_pv_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The third product (weights against the value block) at (r, h): the sum over k of p[r, k] * v[k, h]. -/
theorem mm_pv_apply {φ₁ φ₂ : FTy} (l : FVec Ideal S1024x256 φ₁) (rr : FVec Ideal S256x1024 φ₂) (r : Fin 1024) (h : Fin 1024) :
    FloatOps.matmul dot_S1024x256_S256x1024_S1024x1024_1_0_0_1_n_n none l rr (constant (F := Ideal) S1024x1024 .f32 0x00000000#32) (ix2 r h)
      = ∑ k : Fin 256, l (ix2 r k) * rr (ix2 k h) := by
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 r h) ((ValueIdx.contrEquiv1 dot_S1024x256_S256x1024_S1024x1024_1_0_0_1_n_n 256 rfl rfl).symm k) = ix2 r k := funext fun a => Fin.ext (by
    match a with
    | ⟨0, _⟩ => exact lhs_pv_0 _ _
    | ⟨1, _⟩ => exact (lhs_pv_1 _ _).trans hk)
  have er : dot_S1024x256_S256x1024_S1024x1024_1_0_0_1_n_n.rhsIdx (ix2 r h) ((ValueIdx.contrEquiv1 dot_S1024x256_S256x1024_S1024x1024_1_0_0_1_n_n 256 rfl rfl).symm k) = ix2 k h := funext fun a => Fin.ext (by
    match a with
    | ⟨0, _⟩ => exact (rhs_pv_0 _ _).trans hk
    | ⟨1, _⟩ => exact rhs_pv_1 _ _)
  rw [el, er]

/-! ## The scores at an index -/

/-- The staged key/value block viewed [256, 1024] (and narrowed: the identity on the extended reals) at (j, h). -/
theorem pay16_at (x1 : Vec Ideal S1x256x1024 .f32) (j : Fin 256) (h : Fin 1024) :
    k0_pay16 (F := Ideal) x1 (ix2 j h) = x1 (ix3 (0 : Fin 1) j h) := by
  unfold k0_pay16
  exact shapeCast_1ab_ab_apply x1 shapeCasts_S1x256x1024_S256x1024 j h

/-- The masked scores at (r, j): the score of query row r against key j, times the mask at j. -/
theorem pay18_at (w s5 : BitVec 32) (x0 : Vec Ideal S1x1024x1024 .f32) (x1 : Vec Ideal S1x256x1024 .f32)
    (x2 : Vec Ideal S1024x1024 .f32) (x3 : Vec Ideal S1024 .f32) (r : Fin 1024) (j : Fin 256) :
    k0_pay18 (F := Ideal) w s5 x0 x1 x2 x3 (ix2 r j) = tileScore x0 x1 x2 x3 r j * tileMask w s5 j := by
  unfold k0_pay18
  refine (mulf_apply _ _ _).trans ?_
  rw [pay17_at]
  refine congrArg (· * tileMask w s5 j) ?_
  refine (mm_pk_apply _ _ r j).trans ?_
  unfold tileScore
  refine Finset.sum_congr rfl fun o _ => ?_
  refine congrArg₂ (· * ·) (shapeCast_1ab_ab_apply x0 shapeCasts_S1x1024x1024_S1024x1024 r o) ?_
  refine (addf_apply _ _ _).trans ?_
  refine congrArg₂ (· + ·) ?_ ?_
  · refine (mm_qw_apply _ _ j o).trans ?_
    refine Finset.sum_congr rfl fun h _ => ?_
    exact congrArg (· * x2 (ix2 o h)) (pay16_at x1 j h)
  · refine (broadcastTo_1b_ab_apply _ broadcasts_S1x1024_S256x1024 j o).trans ?_
    exact shapeCast_a_1a_apply x3 shapeCasts_S1024_S1x1024 0 o

/-! ## Column forms of the layout operations -/

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions along the keys at a row -/

/-- The word 0xFF800000 is minus infinity. -/
theorem ofBits_neg_inf : Ideal.ofBits .f32 0xFF800000#32 = ⊥ := by simp [Ideal.ofBits, Ideal.ieee]

/-- The reduced index r with the key coordinate j put back is (r, j). -/
theorem lift_ix (r : Fin 1024) (j : Fin 256) : reduces_S1024x256_S1024.lift (ix1 r) j = ix2 r j :=
  funext fun a => Fin.ext (by match a with | ⟨0, _⟩ => rfl | ⟨1, _⟩ => rfl)

/-- The maximum along the keys, at row r: the fold of max from minus infinity over the row. -/
theorem rowmax_at (src : FVec Ideal S1024x256 .f32) (r : Fin 1024) :
    multiReduction (F := Ideal) .maximumf [1] S1024 src 0xFF800000#32 reduces_S1024x256_S1024 (.inl rfl) rfl (ix1 r)
      = Finset.univ.fold max ⊥ (fun j : Fin 256 => src (ix2 r j)) := by
  refine (Ideal.multiReduction_maximumf_single src 0xFF800000#32 reduces_S1024x256_S1024 (.inl rfl) rfl (ix1 r)).trans ?_
  show Finset.univ.fold max (Ideal.ofBits .f32 0xFF800000#32)
    (fun j : Fin 256 => src (reduces_S1024x256_S1024.lift (ix1 r) j)) = _
  rw [ofBits_neg_inf]
  exact congrArg (Finset.univ.fold max ⊥) (funext fun j => by rw [lift_ix])

/-- The sum along the keys, at row r. -/
theorem rowsum_at (src : FVec Ideal S1024x256 .f32) (r : Fin 1024) :
    multiReduction (F := Ideal) .add [1] S1024 src 0x00000000#32 reduces_S1024x256_S1024 (.inl rfl) rfl (ix1 r)
      = ∑ j : Fin 256, src (ix2 r j) := by
  refine (Ideal.multiReduction_add_single src 0x00000000#32 reduces_S1024x256_S1024 (.inl rfl) rfl (ix1 r)).trans ?_
  show ∑ j : Fin 256, src (reduces_S1024x256_S1024.lift (ix1 r) j) = _
  exact Finset.sum_congr rfl fun j _ => by rw [lift_ix]

/-! ## The statistics of one tile at a row -/

section Row
variable (w s5 : BitVec 32) (x0 : Vec Ideal S1x1024x1024 .f32) (x1 : Vec Ideal S1x256x1024 .f32)
  (x2 : Vec Ideal S1024x1024 .f32) (x3 : Vec Ideal S1024 .f32) (mp : Vec Ideal S1024x1 .f32) (r : Fin 1024)

/-- The tile's masked scores of row r. -/
abbrev rowE : Fin 256 → EReal := fun j => tileScore x0 x1 x2 x3 r j * tileMask w s5 j

/-- The new running maximum of row r: the old one against the maximum of the tile's masked scores. -/
abbrev newM : EReal := max (mp (ix2 r (0 : Fin 1))) (Finset.univ.fold max ⊥ (rowE w s5 x0 x1 x2 x3 r))

/-- The new maximum, as the body computes it. -/
theorem pay19_at :
    k0_pay19 (F := Ideal) w s5 x0 x1 x2 x3 mp (ix2 r (0 : Fin 1)) = newM w s5 x0 x1 x2 x3 mp r := by
  unfold k0_pay19
  refine (maximumf_apply _ _ _).trans ?_
  refine congrArg (max (mp (ix2 r (0 : Fin 1)))) ?_
  refine (shapeCast_a_a1_apply _ shapeCasts_S1024_S1024x1 r 0).trans ?_
  refine (rowmax_at _ r).trans ?_
  exact congrArg (Finset.univ.fold max ⊥) (funext fun j => pay18_at w s5 x0 x1 x2 x3 r j)

/-- The correction factor of a column mq: exp (mq - new maximum). -/
theorem pay20_at (mq : Vec Ideal S1024x1 .f32) :
    k0_pay20 (F := Ideal) w s5 x0 x1 x2 x3 mp mq (ix2 r (0 : Fin 1))
      = Ideal.exp (mq (ix2 r (0 : Fin 1)) - newM w s5 x0 x1 x2 x3 mp r) := by
  unfold k0_pay20
  show Ideal.exp (mq (ix2 r (0 : Fin 1)) - k0_pay19 (F := Ideal) w s5 x0 x1 x2 x3 mp (ix2 r (0 : Fin 1))) = _
  rw [pay19_at]

/-- The shifted exponentials at (r, j). -/
theorem pay21_at (j : Fin 256) :
    k0_pay21 (F := Ideal) w s5 x0 x1 x2 x3 mp (ix2 r j)
      = Ideal.exp (rowE w s5 x0 x1 x2 x3 r j - newM w s5 x0 x1 x2 x3 mp r) := by
  unfold k0_pay21
  show Ideal.exp (k0_pay18 (F := Ideal) w s5 x0 x1 x2 x3 (ix2 r j)
    - broadcastTo S1024x256 (k0_pay19 (F := Ideal) w s5 x0 x1 x2 x3 mp) broadcasts_S1024x1_S1024x256 (ix2 r j)) = _
  rw [pay18_at, broadcastTo_a1_ab_apply (k0_pay19 (F := Ideal) w s5 x0 x1 x2 x3 mp) broadcasts_S1024x1_S1024x256 r j,
    pay19_at]

/-- Their sum along the keys. -/
theorem pay22_at :
    k0_pay22 (F := Ideal) w s5 x0 x1 x2 x3 mp (ix2 r (0 : Fin 1))
      = ∑ j : Fin 256, Ideal.exp (rowE w s5 x0 x1 x2 x3 r j - newM w s5 x0 x1 x2 x3 mp r) := by
  unfold k0_pay22
  refine (shapeCast_a_a1_apply _ shapeCasts_S1024_S1024x1 r 0).trans ?_
  refine (rowsum_at _ r).trans ?_
  exact Finset.sum_congr rfl fun j _ => pay21_at w s5 x0 x1 x2 x3 mp r j

/-- The shifted exponentials re-masked, at (r, j). -/
theorem pay23_at (j : Fin 256) :
    k0_pay23 (F := Ideal) w s5 x0 x1 x2 x3 mp (ix2 r j)
      = Ideal.exp (rowE w s5 x0 x1 x2 x3 r j - newM w s5 x0 x1 x2 x3 mp r) * tileMask w s5 j := by
  unfold k0_pay23
  refine (mulf_apply _ _ _).trans ?_
  rw [pay21_at, pay17_at]

/-- Their sum along the keys. -/
theorem pay24_at :
    k0_pay24 (F := Ideal) w s5 x0 x1 x2 x3 mp (ix2 r (0 : Fin 1))
      = ∑ j : Fin 256, Ideal.exp (rowE w s5 x0 x1 x2 x3 r j - newM w s5 x0 x1 x2 x3 mp r) * tileMask w s5 j := by
  unfold k0_pay24
  refine (shapeCast_a_a1_apply _ shapeCasts_S1024_S1024x1 r 0).trans ?_
  refine (rowsum_at _ r).trans ?_
  exact Finset.sum_congr rfl fun j _ => pay23_at w s5 x0 x1 x2 x3 mp r j

/-- The re-masked exponentials against the value block, at (r, h). -/
theorem pay25_at (h : Fin 1024) :
    k0_pay25 (F := Ideal) w s5 x0 x1 x2 x3 mp (ix2 r h)
      = ∑ j : Fin 256, (Ideal.exp (rowE w s5 x0 x1 x2 x3 r j - newM w s5 x0 x1 x2 x3 mp r) * tileMask w s5 j)
          * x1 (ix3 (0 : Fin 1) j h) := by
  unfold k0_pay25
  refine (mm_pv_apply _ _ r h).trans ?_
  refine Finset.sum_congr rfl fun j _ => ?_
  exact congrArg₂ (· * ·) (pay23_at w s5 x0 x1 x2 x3 mp r j) (pay16_at x1 j h)

end Row

theorem valid_at (w s5 : BitVec 32) (x0 : Vec Ideal S1x1024x1024 .f32) (x1 : Vec Ideal S1x256x1024 .f32)
    (x2 : Vec Ideal S1024x1024 .f32) (x3 : Vec Ideal S1024 .f32) (mp sp tp : Vec Ideal S1024x1 .f32)
    (ap : Vec Ideal S1024x1024 .f32) (r h : Fin 1024) :
    (validM w s5 x0 x1 x2 x3 mp (ix2 r (0 : Fin 1)), validS w s5 x0 x1 x2 x3 mp sp (ix2 r (0 : Fin 1)),
      validT w s5 x0 x1 x2 x3 mp tp (ix2 r (0 : Fin 1)), validA w s5 x0 x1 x2 x3 mp ap (ix2 r h))
    = Attn.stepV (fun j : Fin 256 => tileScore x0 x1 x2 x3 r j * tileMask w s5 j) (fun j => tileMask w s5 j)
        (fun j => x1 (ix3 (0 : Fin 1) j h))
        (mp (ix2 r (0 : Fin 1)), sp (ix2 r (0 : Fin 1)), tp (ix2 r (0 : Fin 1)), ap (ix2 r h)) := by
  have hM : validM w s5 x0 x1 x2 x3 mp (ix2 r (0 : Fin 1)) = newM w s5 x0 x1 x2 x3 mp r := by
    unfold validM k0_pay5
    refine (congrFun (shapeCast_self _ shapeCasts_S1024x1_S1024x1) _).trans ?_
    exact pay19_at w s5 x0 x1 x2 x3 mp r
  have hS : validS w s5 x0 x1 x2 x3 mp sp (ix2 r (0 : Fin 1))
      = sp (ix2 r (0 : Fin 1)) * Ideal.exp (mp (ix2 r (0 : Fin 1)) - newM w s5 x0 x1 x2 x3 mp r)
        + ∑ j : Fin 256, Ideal.exp (rowE w s5 x0 x1 x2 x3 r j - newM w s5 x0 x1 x2 x3 mp r) := by
    unfold validS k0_pay6
    refine (congrFun (shapeCast_self _ shapeCasts_S1024x1_S1024x1) _).trans ?_
    show sp (ix2 r (0 : Fin 1)) * k0_pay20 (F := Ideal) w s5 x0 x1 x2 x3 mp mp (ix2 r (0 : Fin 1))
      + k0_pay22 (F := Ideal) w s5 x0 x1 x2 x3 mp (ix2 r (0 : Fin 1)) = _
    rw [pay20_at, pay22_at]
  have hT : validT w s5 x0 x1 x2 x3 mp tp (ix2 r (0 : Fin 1))
      = tp (ix2 r (0 : Fin 1)) * Ideal.exp (mp (ix2 r (0 : Fin 1)) - newM w s5 x0 x1 x2 x3 mp r)
        + ∑ j : Fin 256, Ideal.exp (rowE w s5 x0 x1 x2 x3 r j - newM w s5 x0 x1 x2 x3 mp r) * tileMask w s5 j := by
    unfold validT k0_pay7
    refine (congrFun (shapeCast_self _ shapeCasts_S1024x1_S1024x1) _).trans ?_
    show tp (ix2 r (0 : Fin 1)) * k0_pay20 (F := Ideal) w s5 x0 x1 x2 x3 mp mp (ix2 r (0 : Fin 1))
      + k0_pay24 (F := Ideal) w s5 x0 x1 x2 x3 mp (ix2 r (0 : Fin 1)) = _
    rw [pay20_at, pay24_at]
  have hA : validA w s5 x0 x1 x2 x3 mp ap (ix2 r h)
      = ap (ix2 r h) * Ideal.exp (mp (ix2 r (0 : Fin 1)) - newM w s5 x0 x1 x2 x3 mp r)
        + ∑ j : Fin 256, (Ideal.exp (rowE w s5 x0 x1 x2 x3 r j - newM w s5 x0 x1 x2 x3 mp r) * tileMask w s5 j)
            * x1 (ix3 (0 : Fin 1) j h) := by
    unfold validA k0_pay8
    refine (congrFun (shapeCast_self _ shapeCasts_S1024x1024_S1024x1024) _).trans ?_
    show ap (ix2 r h) * broadcastTo S1024x1024 (k0_pay20 (F := Ideal) w s5 x0 x1 x2 x3 mp mp)
        broadcasts_S1024x1_S1024x1024 (ix2 r h) + k0_pay25 (F := Ideal) w s5 x0 x1 x2 x3 mp (ix2 r h) = _
    rw [broadcastTo_a1_ab_apply (k0_pay20 (F := Ideal) w s5 x0 x1 x2 x3 mp mp) broadcasts_S1024x1_S1024x1024 r h,
      pay20_at, pay25_at]
  rw [hM, hS, hT, hA]
  rfl

end Cert.KernelIdeal.PayValid

end
-- ==== Proof.PayRest.lean ====
/-
  The other cases of the body read at one query row r and one output column h: the reset, a fully masked tile
  (Attn.stepI), and the output block of a row's last tile (Attn.finish).

  Each statement is a pointwise reading: the vector operations act entry by entry, a same-shape cast is the
  identity, a scalar broadcast reads the scalar everywhere, a [1024, 1] column broadcast to [1024, 1024] reads at
  (r, h) the column's entry of row r, and the cast [1024, 1024] → [1, 1024, 1024] reads at (0, r, h) the entry (r, h).
  The constants are the words of −∞, 0 and 256. The last statement is word arithmetic: for k < 8 and j < 256
  the word 256 k + j does not wrap and is non-negative, so its signed comparison with the length is the
  comparison of the integers.
-/
import proofs.«426862_j69552700391693_2_alg».proof.Proof.TileDefs
import Idealize.ShloMosaic.Lib.Pipeline.Value
import Idealize.ShloMosaic.Lib.ValueLayout
import Idealize.ShloMosaic.PureOps.Ideal.Laws

noncomputable section

namespace Cert.KernelIdeal.PayRest

open Cert.KernelIdeal Cert.KernelIdeal.Gen Cert.KernelIdeal.Steps Cert.KernelIdeal.Tile
open Idealize.ShloMosaic Idealize.ShloMosaic.ValueIdx

/-! ## The constants -/

/-- The word 0xFF800000 is −∞. -/
theorem ofBits_neg_inf : Ideal.ofBits .f32 0xFF800000#32 = ⊥ := by simp [Ideal.ofBits, Ideal.ieee]

/-- The word 0x43800000 is 256 = 2²³ · 2⁻¹⁵. -/
theorem ofBits_256 : Ideal.ofBits .f32 0x43800000#32 = (((256 : ℕ) : ℝ) : EReal) := by
  simp [Ideal.ofBits, Ideal.ieee]
  rw [← EReal.coe_mul]
  norm_num

/-! ## A column broadcast along the rows -/

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reset -/

theorem reset_at (r h : Fin 1024) :
    ((resetM (F := Ideal)) (ix2 r (0 : Fin 1)), (resetS (F := Ideal)) (ix2 r (0 : Fin 1)),
      (resetT (F := Ideal)) (ix2 r (0 : Fin 1)), (resetA (F := Ideal)) (ix2 r h)) = Attn.init := by
  have eM : (resetM (F := Ideal)) (ix2 r (0 : Fin 1)) = ⊥ := by
    show shapeCast S1024x1 (broadcast S1024x1 (Ideal.ofBits .f32 0xFF800000#32)) shapeCasts_S1024x1_S1024x1 _ = ⊥
    rw [shapeCast_self, broadcast_apply, ofBits_neg_inf]
  have eS : (resetS (F := Ideal)) (ix2 r (0 : Fin 1)) = 0 := by
    show shapeCast S1024x1 (broadcast S1024x1 (Ideal.ofBits .f32 0x00000000#32)) shapeCasts_S1024x1_S1024x1 _ = 0
    rw [shapeCast_self, broadcast_apply, Ideal.ofBits_zero_f32]
  have eT : (resetT (F := Ideal)) (ix2 r (0 : Fin 1)) = 0 := by
    show shapeCast S1024x1 (broadcast S1024x1 (Ideal.ofBits .f32 0x00000000#32)) shapeCasts_S1024x1_S1024x1 _ = 0
    rw [shapeCast_self, broadcast_apply, Ideal.ofBits_zero_f32]
  have eA : (resetA (F := Ideal)) (ix2 r h) = 0 := by
    show shapeCast S1024x1024 (broadcast S1024x1024 (Ideal.ofBits .f32 0x00000000#32)) shapeCasts_S1024x1024_S1024x1024 _ = 0
    rw [shapeCast_self, broadcast_apply, Ideal.ofBits_zero_f32]
  rw [eM, eS, eT, eA]
  rfl

/-! ## A fully masked tile -/

/-- The new maximum max(m, 0), read at an entry. -/
theorem pay9_at (mp : Vec Ideal S1024x1 .f32) (i : S1024x1.Idx) : k0_pay9 mp i = max (mp i : EReal) 0 := by
  show max (mp i : EReal) (Ideal.ofBits .f32 0x00000000#32) = max (mp i : EReal) 0
  rw [Ideal.ofBits_zero_f32]

/-- The correction factor exp(s − max(m, 0)), read at an entry. -/
theorem pay10_at (mp sp : Vec Ideal S1024x1 .f32) (i : S1024x1.Idx) :
    k0_pay10 mp sp i = Ideal.exp ((sp i : EReal) - max (mp i : EReal) 0) := by
  show Ideal.exp ((sp i : EReal) - k0_pay9 mp i) = _
  rw [pay9_at]

theorem masked_at (mp sp tp : Vec Ideal S1024x1 .f32) (ap : Vec Ideal S1024x1024 .f32) (r h : Fin 1024) :
    (maskedM mp (ix2 r (0 : Fin 1)), maskedS mp sp (ix2 r (0 : Fin 1)), maskedT mp tp (ix2 r (0 : Fin 1)),
      maskedA mp ap (ix2 r h))
    = Attn.stepI (((256 : ℕ) : ℝ) : EReal)
        (mp (ix2 r (0 : Fin 1)), sp (ix2 r (0 : Fin 1)), tp (ix2 r (0 : Fin 1)), ap (ix2 r h)) := by
  have eM : maskedM mp (ix2 r (0 : Fin 1)) = max (mp (ix2 r (0 : Fin 1)) : EReal) 0 := by
    show shapeCast S1024x1 (k0_pay9 mp) shapeCasts_S1024x1_S1024x1 _ = _
    rw [shapeCast_self, pay9_at]
  have eS : maskedS mp sp (ix2 r (0 : Fin 1))
      = (sp (ix2 r (0 : Fin 1)) : EReal) * Ideal.exp ((mp (ix2 r (0 : Fin 1)) : EReal) - max (mp (ix2 r (0 : Fin 1)) : EReal) 0)
        + (((256 : ℕ) : ℝ) : EReal) * Ideal.exp (0 - max (mp (ix2 r (0 : Fin 1)) : EReal) 0) := by
    show shapeCast S1024x1 (addf (mulf sp (k0_pay10 mp mp))
        (mulf (broadcast S1024x1 (Ideal.ofBits .f32 0x43800000#32))
          (exp (subf (broadcast S1024x1 (Ideal.ofBits .f32 0x00000000#32)) (k0_pay9 mp))))) shapeCasts_S1024x1_S1024x1 _ = _
    rw [shapeCast_self]
    show (sp (ix2 r (0 : Fin 1)) : EReal) * k0_pay10 mp mp (ix2 r (0 : Fin 1))
        + Ideal.ofBits .f32 0x43800000#32 * Ideal.exp (Ideal.ofBits .f32 0x00000000#32 - k0_pay9 mp (ix2 r (0 : Fin 1))) = _
    rw [pay10_at, pay9_at, ofBits_256, Ideal.ofBits_zero_f32]
  have eT : maskedT mp tp (ix2 r (0 : Fin 1))
      = (tp (ix2 r (0 : Fin 1)) : EReal) * Ideal.exp ((mp (ix2 r (0 : Fin 1)) : EReal) - max (mp (ix2 r (0 : Fin 1)) : EReal) 0) := by
    show shapeCast S1024x1 (mulf tp (k0_pay10 mp mp)) shapeCasts_S1024x1_S1024x1 _ = _
    rw [shapeCast_self, mulf_apply, pay10_at]
  have eA : maskedA mp ap (ix2 r h)
      = (ap (ix2 r h) : EReal) * Ideal.exp ((mp (ix2 r (0 : Fin 1)) : EReal) - max (mp (ix2 r (0 : Fin 1)) : EReal) 0) := by
    show shapeCast S1024x1024 (mulf ap (broadcastTo S1024x1024 (k0_pay10 mp mp) broadcasts_S1024x1_S1024x1024))
        shapeCasts_S1024x1024_S1024x1024 _ = _
    rw [shapeCast_self, mulf_apply, broadcastTo_a1_ab_apply, pay10_at]
  rw [eM, eS, eT, eA]
  rfl

/-! ## The output block of the last tile -/

theorem last_at (t s : Vec Ideal S1024x1 .f32) (a : Vec Ideal S1024x1024 .f32) (r h : Fin 1024) (m : EReal) :
    lastOut t s a (ix3 (0 : Fin 1) r h)
      = Attn.finish (Ideal.ofBits .f32 0x29E12E13#32) (m, s (ix2 r (0 : Fin 1)), t (ix2 r (0 : Fin 1)), a (ix2 r h)) := by
  show shapeCast S1x1024x1024 (divf a (broadcastTo S1024x1024
      (addf t (mulf (broadcast S1024x1 (Ideal.ofBits .f32 0x29E12E13#32)) s)) broadcasts_S1024x1_S1024x1024))
      shapeCasts_S1024x1024_S1x1024x1024 (ix3 (0 : Fin 1) r h) = _
  rw [shapeCast_ab_1ab_apply, divf_apply, broadcastTo_a1_ab_apply]
  rfl

/-! ## The mask of a tile -/

/-- For k < 8 and j < 256 the word 256 k + j, computed in 32-bit arithmetic, is the integer 256 k + j. -/
theorem toInt_tile_pos (k : Fin 8) (j : Fin 256) :
    (Scalar.muli (BitVec.ofNat 32 k.val) 256#32 + BitVec.ofNat 32 j.val).toInt = ((256 * k.val + j.val : ℕ) : Int) := by
  have hk := k.isLt
  have hj := j.isLt
  have hn : (Scalar.muli (BitVec.ofNat 32 k.val) 256#32 + BitVec.ofNat 32 j.val).toNat = 256 * k.val + j.val := by
    show (BitVec.ofNat 32 k.val * 256#32 + BitVec.ofNat 32 j.val).toNat = _
    simp only [BitVec.toNat_add, BitVec.toNat_mul, BitVec.toNat_ofNat]
    omega
  unfold BitVec.toInt
  rw [hn, if_pos (by omega)]

/-- The mask of tile k at key j is 1 exactly when the key position 256 k + j lies below the length. -/
theorem tileMask_eq (w : BitVec 32) (k : Fin 8) (j : Fin 256) :
    tileMask w (Scalar.muli (BitVec.ofNat 32 k.val) 256#32) j
      = if ((256 * k.val + j.val : ℕ) : Int) < w.toInt then 1 else 0 := by
  unfold tileMask
  refine if_congr ?_ rfl rfl
  rw [BitVec.slt_iff_toInt_lt, toInt_tile_pos]

end Cert.KernelIdeal.PayRest

end
-- ==== Proof.Conds.lean ====
/-
  The prefetched lengths and the body's two conditions on them.

  The body reads seq_len[b] (b the grid's first coordinate) and asks whether the tile's first key position
  256 * ki lies below it; the key/value window's block index is min(ki, ceil(len / 256) - 1), which is ki itself
  on such a tile and stays inside the array as soon as 1 <= len <= 2048.
-/
import proofs.«426862_j69552700391693_2_alg».proof.Proof.LenDefs
import Idealize.ShloMosaic.Lib.ValueIdx
import Idealize.ShloMosaic.Lib.Affine
import Idealize.ShloMosaic.Lib.WordArith

noncomputable section

namespace Cert.KernelIdeal.Conds

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The grid point t is (b, qi, ki) = (t / 16, t / 8 mod 2, t mod 8). -/
theorem coords_val (t : Fin grid0.N) :
    (grid0.coords t 0).val = t.val / 16 ∧ (grid0.coords t 1).val = t.val / 8 % 2 ∧ (grid0.coords t 2).val = t.val % 8 :=
  (by decide +kernel : ∀ t : Fin grid0.N,
    (grid0.coords t 0).val = t.val / 16 ∧ (grid0.coords t 1).val = t.val / 8 % 2 ∧ (grid0.coords t 2).val = t.val % 8) t

/-- That word is seq_len[b]. -/
theorem lenWord_eq (i : grid0.Coords) : lenWord m i = lens m 0 (ix1 (i 0)) := by
  -- both sides are the launch memory's table at an index; the indices agree on the one axis
  show (tbl m 0) _ = _
  unfold tbl
  show m _ _ = m _ _
  have hi : (i 0).val < 8 := (i 0).isLt
  have hoff : (BitVec.ofNat 32 (i 0).val).toNat = (i 0).val := WordArith.toNat_ofNat_of_lt _ (by omega)
  congr 1
  funext a
  apply Fin.ext
  obtain ⟨a, ha⟩ := a
  have ha' : a < 1 := ha
  obtain rfl : a = 0 := by omega
  -- offset b, stride 1, the unit rectangle's one index 0
  show (BitVec.ofNat 32 (i 0).val).toNat + 1 * 0 = (i 0).val
  omega

/-- The first condition: the tile starts below the length. -/
theorem cond1_iff (i : grid0.Coords) (w : BitVec 32) : cond0_1 i w ↔ ((256 * (i 2).val : ℕ) : Int) < w.toInt := by
  have hki : (i 2).val < 8 := (i 2).isLt
  -- 256 * ki < 2048 does not wrap
  have hm : (Scalar.muli (BitVec.ofNat 32 (i 2).val) 256#32).toInt = ((256 * (i 2).val : ℕ) : Int) := by
    have := Affine.muli (Affine.ofNat (i 2).val (e := ((i 2).val : Int)) ⟨rfl, by omega⟩) (Affine.ofNat 256 (e := 256) ⟨rfl, by norm_num⟩)
      (e := ((i 2).val : Int) * 256) ⟨rfl, by omega, by omega⟩
    unfold Affine.IsInt at this
    rw [this]; push_cast; ring
  show Scalar.cmpi .ne (Scalar.extui _) 0#32 = 1#1 ↔ _
  rw [Scalar.guard_iff, Scalar.cmpi, IntOp.cmpi_slt, hm]

/-- The second condition is the first one's negation. -/
theorem cond2_iff (i : grid0.Coords) (w : BitVec 32) : cond0_2 i w ↔ ¬ cond0_1 i w := by
  show Scalar.cmpi .ne (Scalar.extui _) 0#32 = 1#1 ↔ ¬ (Scalar.cmpi .ne (Scalar.extui _) 0#32 = 1#1)
  rw [Scalar.guard_iff, Scalar.guard_iff]
  -- a bit flipped is one exactly when the bit is not
  generalize Scalar.cmpi .slt _ w = c
  revert c; decide

/-- The key/value window's block index word at tile ki and length word w: min(ki, (w + 255) / 256 - 1). -/
def kvWord (ki : Nat) (w : BitVec 32) : BitVec 32 :=
  Scalar.minsi (BitVec.ofNat 32 ki) (Scalar.subi (Scalar.divsi (Scalar.addi w 255#32) 256#32) 1#32)

/-- With 1 ≤ w ≤ 2048 read signed, no step of that chain wraps and the division is of a positive word by a positive one:
    the word reads min(ki, (w + 255) / 256 - 1). -/
theorem kvWord_isInt (ki : Nat) (hki : ki < 8) (w : BitVec 32) (h1 : 1 ≤ w.toInt) (h2 : w.toInt ≤ 2048) :
    Affine.IsInt (kvWord ki w) (min (ki : Int) ((w.toInt + 255) / 256 - 1)) := by
  have hw := Affine.word w
  have hv2 := Affine.addi hw (Affine.ofNat 255 (e := 255) ⟨rfl, by norm_num⟩) (e := w.toInt + 255) ⟨rfl, by omega, by omega⟩
  have hv3 := Affine.divsi hv2 (Affine.ofNat 256 (e := 256) ⟨rfl, by norm_num⟩) (e := (w.toInt + 255) / 256) ⟨rfl, by omega, by omega⟩
  have hv4 := Affine.subi hv3 (Affine.ofNat 1 (e := 1) ⟨rfl, by norm_num⟩) (e := (w.toInt + 255) / 256 - 1) ⟨rfl, by omega, by omega⟩
  exact Affine.minsi (Affine.ofNat ki (e := ki) ⟨rfl, by omega⟩) hv4 rfl

/-- The key/value index map at a grid point, its table word named. -/
theorem transform1_eq (i : grid0.Coords) : cc0_transform_1 k0_off1_inb numel1_S1 (tbl m) i =
    ![(BitVec.ofNat 32 (i 0).val).toNat, (kvWord (i 2).val (lenWord m i)).toNat, 0] := rfl

/-- With every length in [1, 2048] the key/value window's blocks lie inside proj_q. -/
theorem ok_of_len (h : ∀ b : Fin 8, 1 ≤ (lens m 0 (ix1 b)).toInt ∧ (lens m 0 (ix1 b)).toInt ≤ 2048) : Ok m := by
  intro i
  have hb : (i 0).val < 8 := (i 0).isLt
  have hki : (i 2).val < 8 := (i 2).isLt
  obtain ⟨h1, h2⟩ := h (i 0)
  rw [← lenWord_eq m i] at h1 h2
  have hn := Affine.toNat_of (kvWord_isInt (i 2).val hki (lenWord m i) h1 h2) (by omega)
  have h0 : (BitVec.ofNat 32 (i 0).val).toNat = (i 0).val := WordArith.toNat_ofNat_of_lt _ (by omega)
  refine ⟨?_, Or.inl rfl⟩
  rw [transform1_eq]
  intro a
  fin_cases a
  · show ((BitVec.ofNat 32 (i 0).val).toNat + 1) * 1 ≤ 8
    omega
  · show ((kvWord (i 2).val (lenWord m i)).toNat + 1) * 256 ≤ 2048
    omega
  · show (0 + 1) * 1024 ≤ 1024
    omega

/-- On a tile that starts below the length the key/value window's block index is (b, ki, 0). -/
theorem kv_index (i : grid0.Coords) (h : ∀ b : Fin 8, 1 ≤ (lens m 0 (ix1 b)).toInt ∧ (lens m 0 (ix1 b)).toInt ≤ 2048)
    (hv : cond0_1 i (lenWord m i)) :
    cc0_transform_1 k0_off1_inb numel1_S1 (tbl m) i = ![(i 0).val, (i 2).val, 0] := by
  have hb : (i 0).val < 8 := (i 0).isLt
  have hki : (i 2).val < 8 := (i 2).isLt
  obtain ⟨h1, h2⟩ := h (i 0)
  rw [← lenWord_eq m i] at h1 h2
  rw [cond1_iff] at hv
  have hn := Affine.toNat_of (kvWord_isInt (i 2).val hki (lenWord m i) h1 h2) (by omega)
  have h0 : (BitVec.ofNat 32 (i 0).val).toNat = (i 0).val := WordArith.toNat_ofNat_of_lt _ (by omega)
  have hk : (kvWord (i 2).val (lenWord m i)).toNat = (i 2).val := by
    push_cast at hv
    omega
  rw [transform1_eq, h0, hk]

end Cert.KernelIdeal.Conds

end
-- ==== Proof.Blocks.lean ====
/-
  The windows' blocks read at an index.

  At grid point t = (b, qi, ki): the proj_p window stages rows 1024 qi .. 1024 qi + 1023 of batch b; the proj_q
  window stages rows 256 kc .. 256 kc + 255 of batch b, kc the (clamped) block index its index map computes; the
  W_t and b_t windows stage their whole arrays; the output window's block at t is rows 1024 qi .. of batch b, and
  the blocks of the points that write back (ki = 7) cover the result array.
-/
import proofs.«426862_j69552700391693_2_alg».proof.Proof.Gen.KernelIdeal.Frame.Runs
import proofs.«426862_j69552700391693_2_alg».proof.Proof.Gen.KernelIdeal.Points
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- A small grid coordinate is its own 32-bit word's value. -/
theorem toNat_ofNat_small (x : Nat) (hx : x < 4294967296) : (BitVec.ofNat 32 x).toNat = x := by
  rw [BitVec.toNat_ofNat]; exact Nat.mod_eq_of_lt hx

/-- b_t's block is the whole array. -/
theorem blkB_at (hO : Ok m) (c : Dev nD) (t : Fin (cfgM m hO).N) (o : Fin 1024) :
    (iblk m hO c 3 t : Vec F S1024 .f32) (ix1 o)
      = (m ((c : Thread nD τ).loc main_arg3) : S1024.Idx → Elt F .f32) (ix1 o) := by
  show V m c main_arg3 ((((cfgM m hO).win 3).blk t).view.emb (ix1 o)) = _
  unfold V
  refine congrArg _ (funext fun a => Fin.ext ?_)
  match a with
  | ⟨0, _⟩ =>
    show ((cfgM m hO).win 3).index t (0 : Fin 1) * 1024 + 1 * o.val = o.val
    have h0 : ((cfgM m hO).win 3).index t (0 : Fin 1) = 0 := rfl
    rw [h0]; omega

/-- W_t's block is the whole array. -/
theorem blkW_at (hO : Ok m) (c : Dev nD) (t : Fin (cfgM m hO).N) (o h : Fin 1024) :
    (iblk m hO c 2 t : Vec F S1024x1024 .f32) (ix2 o h)
      = (m ((c : Thread nD τ).loc main_arg2) : S1024x1024.Idx → Elt F .f32) (ix2 o h) := by
  show V m c main_arg2 ((((cfgM m hO).win 2).blk t).view.emb (ix2 o h)) = _
  unfold V
  refine congrArg _ (funext fun a => Fin.ext ?_)
  match a with
  | ⟨0, _⟩ =>
    show ((cfgM m hO).win 2).index t (0 : Fin 2) * 1024 + 1 * o.val = o.val
    have h0 : ((cfgM m hO).win 2).index t (0 : Fin 2) = 0 := rfl
    rw [h0]; omega
  | ⟨1, _⟩ =>
    show ((cfgM m hO).win 2).index t (1 : Fin 2) * 1024 + 1 * h.val = h.val
    have h0 : ((cfgM m hO).win 2).index t (1 : Fin 2) = 0 := rfl
    rw [h0]; omega

/-- proj_p's block: row r of the block is row 1024 qi + r of batch b. -/
theorem blkP_at (hO : Ok m) (c : Dev nD) (t : Fin (cfgM m hO).N) (b : Fin 8) (qi : Fin 2)
    (hb : (grid0.coords t 0).val = b.val) (hq : (grid0.coords t 1).val = qi.val)
    (r o : Fin 1024) (p : Fin 2048) (hp : p.val = 1024 * qi.val + r.val) :
    (iblk m hO c 0 t : Vec F S1x1024x1024 .f32) (ix3 (0 : Fin 1) r o)
      = (m ((c : Thread nD τ).loc main_arg0) : S8x2048x1024.Idx → Elt F .f32) (ix3 b p o) := by
  have i0 : ((cfgM m hO).win 0).index t (0 : Fin 3) = b.val := by
    show (BitVec.ofNat 32 (grid0.coords t 0).val).toNat = b.val
    rw [hb]; exact toNat_ofNat_small _ (by have := b.isLt; omega)
  have i1 : ((cfgM m hO).win 0).index t (1 : Fin 3) = qi.val := by
    show (BitVec.ofNat 32 (grid0.coords t 1).val).toNat = qi.val
    rw [hq]; exact toNat_ofNat_small _ (by have := qi.isLt; omega)
  have i2 : ((cfgM m hO).win 0).index t (2 : Fin 3) = 0 := rfl
  show V m c main_arg0 ((((cfgM m hO).win 0).blk t).view.emb (ix3 (0 : Fin 1) r o)) = _
  unfold V
  refine congrArg _ (funext fun a => Fin.ext ?_)
  match a with
  | ⟨0, _⟩ =>
    show ((cfgM m hO).win 0).index t (0 : Fin 3) * 1 + 1 * 0 = b.val
    rw [i0]; omega
  | ⟨1, _⟩ =>
    show ((cfgM m hO).win 0).index t (1 : Fin 3) * 1024 + 1 * r.val = p.val
    rw [i1, hp]; omega
  | ⟨2, _⟩ =>
    show ((cfgM m hO).win 0).index t (2 : Fin 3) * 1024 + 1 * o.val = o.val
    rw [i2]; omega

/-- proj_q's block, when its index map's value at t is (b, kc, 0): row j of the block is row 256 kc + j of batch b. -/
theorem blkQ_at (hO : Ok m) (c : Dev nD) (t : Fin (cfgM m hO).N) (b : Fin 8) (kc : Fin 8)
    (hidx : cc0_transform_1 k0_off1_inb numel1_S1 (tbl m) (grid0.coords t) = ![b.val, kc.val, 0])
    (j : Fin 256) (h : Fin 1024) (q : Fin 2048) (hq : q.val = 256 * kc.val + j.val) :
    (iblk m hO c 1 t : Vec F S1x256x1024 .f32) (ix3 (0 : Fin 1) j h)
      = (m ((c : Thread nD τ).loc main_arg1) : S8x2048x1024.Idx → Elt F .f32) (ix3 b q h) := by
  have hI : ((cfgM m hO).win 1).index t = cc0_transform_1 k0_off1_inb numel1_S1 (tbl m) (grid0.coords t) := rfl
  have i0 : ((cfgM m hO).win 1).index t (0 : Fin 3) = b.val := by rw [hI, hidx]; rfl
  have i1 : ((cfgM m hO).win 1).index t (1 : Fin 3) = kc.val := by rw [hI, hidx]; rfl
  have i2 : ((cfgM m hO).win 1).index t (2 : Fin 3) = 0 := by rw [hI, hidx]; rfl
  show V m c main_arg1 ((((cfgM m hO).win 1).blk t).view.emb (ix3 (0 : Fin 1) j h)) = _
  unfold V
  refine congrArg _ (funext fun a => Fin.ext ?_)
  match a with
  | ⟨0, _⟩ =>
    show ((cfgM m hO).win 1).index t (0 : Fin 3) * 1 + 1 * 0 = b.val
    rw [i0]; omega
  | ⟨1, _⟩ =>
    show ((cfgM m hO).win 1).index t (1 : Fin 3) * 256 + 1 * j.val = q.val
    rw [i1, hq]; omega
  | ⟨2, _⟩ =>
    show ((cfgM m hO).win 1).index t (2 : Fin 3) * 1024 + 1 * h.val = h.val
    rw [i2]; omega

/-- The output window's block index at a grid point: the batch and the query block; it does not move with the key
    block. Decided once over the 128 grid points. -/
theorem out_index : ∀ t : Fin grid0.N, cc0_transform_4 (grid0.coords t) (0 : Fin 3) = t.val / 16
    ∧ cc0_transform_4 (grid0.coords t) (1 : Fin 3) = t.val / 8 % 2
    ∧ cc0_transform_4 (grid0.coords t) (2 : Fin 3) = 0 := by
  decide +kernel

/-- The output window's block at t, read off a whole-array function: row r of the block is row 1024 qi + r of batch b. -/
theorem outBlk_at (hO : Ok m) (c : Dev nD) (t : Fin (cfgM m hO).N) (b : Fin 8) (qi : Fin 2)
    (hb : (grid0.coords t 0).val = b.val) (hq : (grid0.coords t 1).val = qi.val)
    (G : S8x2048x1024.Idx → Elt F .f32) (r h : Fin 1024) (p : Fin 2048) (hp : p.val = 1024 * qi.val + r.val) :
    ((((cfgM m hO).win 4).blk t).view.read (Elt F) G : Vec F S1x1024x1024 .f32) (ix3 (0 : Fin 1) r h) = G (ix3 b p h) := by
  have i0 : ((cfgM m hO).win 4).index t (0 : Fin 3) = b.val := by
    show (BitVec.ofNat 32 (grid0.coords t 0).val).toNat = b.val
    rw [hb]; exact toNat_ofNat_small _ (by have := b.isLt; omega)
  have i1 : ((cfgM m hO).win 4).index t (1 : Fin 3) = qi.val := by
    show (BitVec.ofNat 32 (grid0.coords t 1).val).toNat = qi.val
    rw [hq]; exact toNat_ofNat_small _ (by have := qi.isLt; omega)
  have i2 : ((cfgM m hO).win 4).index t (2 : Fin 3) = 0 := rfl
  show G ((((cfgM m hO).win 4).blk t).view.emb (ix3 (0 : Fin 1) r h)) = _
  refine congrArg _ (funext fun a => Fin.ext ?_)
  match a with
  | ⟨0, _⟩ =>
    show ((cfgM m hO).win 4).index t (0 : Fin 3) * 1 + 1 * 0 = b.val
    rw [i0]; omega
  | ⟨1, _⟩ =>
    show ((cfgM m hO).win 4).index t (1 : Fin 3) * 1024 + 1 * r.val = p.val
    rw [i1, hp]; omega
  | ⟨2, _⟩ =>
    show ((cfgM m hO).win 4).index t (2 : Fin 3) * 1024 + 1 * h.val = h.val
    rw [i2]; omega

/-- An index of the result array is in the output block of point t iff each coordinate is in the block's range. -/
theorem mem_outBlk (hO : Ok m) (t : Fin (cfgM m hO).N) (i : S8x2048x1024.Idx) :
    i ∈ (((cfgM m hO).win 4).blk t).view.set
      ↔ ∀ a : Fin 3, ((cfgM m hO).win 4).index t a * S1x1024x1024.size a ≤ (i a).val
          ∧ (i a).val < ((cfgM m hO).win 4).index t a * S1x1024x1024.size a + S1x1024x1024.size a := by
  have e : (((cfgM m hO).win 4).blk t).view.set = (((cfgM m hO).win 4).rect t).set :=
    View.set_slice_whole main_v0 (((cfgM m hO).win 4).rect t)
  refine (Eq.to_iff (congrArg (fun S => i ∈ S) e)).trans ?_
  exact Rect.mem_set_unit

/-- The blocks of the points that write back cover the result array: entry (b, p, h) is in the block of the point
    16 b + 8 (p / 1024) + 7. -/
theorem out_cover (hO : Ok m) (i : S8x2048x1024.Idx) :
    ∃ t : Fin (cfgM m hO).N, ((cfgM m hO).win 4).flush t = true ∧ i ∈ (((cfgM m hO).win 4).blk t).view.set := by
  have h0 : (i 0).val < 8 := (i 0).isLt
  have h1 : (i 1).val < 2048 := (i 1).isLt
  have h2 : (i 2).val < 1024 := (i 2).isLt
  have hN : 16 * (i 0).val + 8 * ((i 1).val / 1024) + 7 < grid0.N := by
    show _ < 128
    omega
  refine ⟨⟨16 * (i 0).val + 8 * ((i 1).val / 1024) + 7, hN⟩, (flush0_4 (adm m hO) _).mpr ?_, ?_⟩
  · show (16 * (i 0).val + 8 * ((i 1).val / 1024) + 7) % 8 = 7
    omega
  · refine (mem_outBlk m hO _ i).mpr ?_
    obtain ⟨e0, e1, e2⟩ := out_index ⟨16 * (i 0).val + 8 * ((i 1).val / 1024) + 7, hN⟩
    intro a
    match a with
    | ⟨0, _⟩ =>
      show cc0_transform_4 (grid0.coords ⟨16 * (i 0).val + 8 * ((i 1).val / 1024) + 7, hN⟩) (0 : Fin 3) * 1 ≤ (i 0).val
        ∧ (i 0).val < cc0_transform_4 (grid0.coords ⟨16 * (i 0).val + 8 * ((i 1).val / 1024) + 7, hN⟩) (0 : Fin 3) * 1 + 1
      rw [e0]; show (16 * (i 0).val + 8 * ((i 1).val / 1024) + 7) / 16 * 1 ≤ _ ∧ _ < (16 * (i 0).val + 8 * ((i 1).val / 1024) + 7) / 16 * 1 + 1
      omega
    | ⟨1, _⟩ =>
      show cc0_transform_4 (grid0.coords ⟨16 * (i 0).val + 8 * ((i 1).val / 1024) + 7, hN⟩) (1 : Fin 3) * 1024 ≤ (i 1).val
        ∧ (i 1).val < cc0_transform_4 (grid0.coords ⟨16 * (i 0).val + 8 * ((i 1).val / 1024) + 7, hN⟩) (1 : Fin 3) * 1024 + 1024
      rw [e1]; show (16 * (i 0).val + 8 * ((i 1).val / 1024) + 7) / 8 % 2 * 1024 ≤ _ ∧ _ < (16 * (i 0).val + 8 * ((i 1).val / 1024) + 7) / 8 % 2 * 1024 + 1024
      omega
    | ⟨2, _⟩ =>
      show cc0_transform_4 (grid0.coords ⟨16 * (i 0).val + 8 * ((i 1).val / 1024) + 7, hN⟩) (2 : Fin 3) * 1024 ≤ (i 2).val
        ∧ (i 2).val < cc0_transform_4 (grid0.coords ⟨16 * (i 0).val + 8 * ((i 1).val / 1024) + 7, hN⟩) (2 : Fin 3) * 1024 + 1024
      rw [e2]; omega

end Cert.KernelIdeal.Blocks

end
-- ==== Proof.Softmax.lean ====
/-
  The online-softmax recurrence on one row agrees with the reference's masked, renormalised softmax.

  Over the reals any real shift mu cancels between numerator and denominator, and
  S * (T / S + eps) = T + eps * S for S > 0.
-/
import proofs.«426862_j69552700391693_2_alg».proof.Proof.SoftmaxDefs

noncomputable section

namespace Attn

open Idealize.ShloMosaic

/-- The coercion of a finite real sum is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of two coerced reals is the coerced maximum. -/
private theorem coe_max' (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A real against the running maximum (from -inf) of finitely many reals is a real. -/
private theorem max_fold_real {ι : Type*} (f : ι → ℝ) (s : Finset ι) :
    ∀ b : ℝ, ∃ M : ℝ, max (b : EReal) (s.fold max ⊥ (fun j => (f j : EReal))) = (M : EReal) := by
  classical
  induction s using Finset.induction_on with
  | empty => intro b; exact ⟨b, by simp⟩
  | insert a s ha ih =>
    intro b
    obtain ⟨M, hM⟩ := ih (max b (f a))
    refine ⟨M, ?_⟩
    rw [Finset.fold_insert ha, ← max_assoc, coe_max', hM]

/-- The running maximum (from -inf) of a nonempty family of reals is a real. -/
private theorem fold_real {n : ℕ} (hn : 0 < n) (f : Fin n → ℝ) :
    ∃ M : ℝ, Finset.univ.fold max ⊥ (fun j => (f j : EReal)) = (M : EReal) := by
  classical
  have h0 : (⟨0, hn⟩ : Fin n) ∈ (Finset.univ : Finset (Fin n)) := Finset.mem_univ _
  obtain ⟨M, hM⟩ := max_fold_real f (Finset.univ.erase (⟨0, hn⟩ : Fin n)) (f ⟨0, hn⟩)
  refine ⟨M, ?_⟩
  rw [← Finset.insert_erase h0, Finset.fold_insert (Finset.notMem_erase _ _), hM]

/-- The full update on real data, once the new maximum and the correction factor are known reals. -/
private theorem stepV_real {n : ℕ} (e w v : Fin n → ℝ) (st : St) (mu' c s t a : ℝ)
    (hm : max st.1 (Finset.univ.fold max ⊥ (fun j => (e j : EReal))) = (mu' : EReal))
    (hc : Ideal.exp (st.1 - (mu' : EReal)) = (c : EReal))
    (hs : st.2.1 = (s : EReal)) (ht : st.2.2.1 = (t : EReal)) (ha : st.2.2.2 = (a : EReal)) :
    stepV (fun j => (e j : EReal)) (fun j => (w j : EReal)) (fun j => (v j : EReal)) st
      = ((mu' : EReal), ((s * c + ∑ j, Real.exp (e j - mu') : ℝ) : EReal),
          ((t * c + ∑ j, Real.exp (e j - mu') * w j : ℝ) : EReal),
          ((a * c + ∑ j, Real.exp (e j - mu') * w j * v j : ℝ) : EReal)) := by
  simp only [stepV, hm, hc, hs, ht, ha, ← EReal.coe_sub, Ideal.exp_coe, ← EReal.coe_mul, ← coe_sum,
    ← EReal.coe_add]

/-- The reference's entry on real data, once its maximum M, its sum S and its renormaliser T are known reals
    with S and T + eps nonzero. -/
private theorem refRow_real {N : ℕ} (eps : ℝ) (e w v : Fin N → ℝ) (M S T : ℝ)
    (hM : Finset.univ.fold max ⊥ (fun q => (e q : EReal)) = (M : EReal))
    (hS : ∑ q, Real.exp (e q - M) = S) (hS0 : S ≠ 0)
    (hT : ∑ q, Real.exp (e q - M) * (1 / S) * w q = T) (hT0 : T + eps ≠ 0) :
    refRow (eps : EReal) (fun q => (e q : EReal)) (fun q => (w q : EReal)) (fun q => (v q : EReal))
      = ((∑ q, Real.exp (e q - M) * (1 / S) * w q * (1 / (T + eps)) * v q : ℝ) : EReal) := by
  simp only [refRow, hM, ← EReal.coe_sub, Ideal.exp_coe, ← coe_sum, hS, Ideal.div_coe hS0, ← EReal.coe_mul, hT,
    ← EReal.coe_add, Ideal.div_coe hT0]

variable {n : ℕ} (E W V : ℕ → ℝ)

/-- The first tile, from the initial statistics. -/
theorem inv_first (hn : 0 < n) :
    Inv n E W V 1 (stepV (fun j : Fin n => ((E j.val : ℝ) : EReal)) (fun j => ((W j.val : ℝ) : EReal))
      (fun j => ((V j.val : ℝ) : EReal)) init) := by
  obtain ⟨M, hM⟩ := fold_real hn (fun j : Fin n => E j.val)
  rw [stepV_real (fun j : Fin n => E j.val) (fun j => W j.val) (fun j => V j.val) init M 0 0 0 0
    (by rw [init]; simp only [hM]; exact max_eq_right bot_le)
    (by rw [init]; simp only [EReal.bot_sub, Ideal.exp_bot, EReal.coe_zero]) (by simp [init]) (by simp [init])
    (by simp [init])]
  refine ⟨M, rfl, ?_, ?_, ?_⟩ <;> simp only [mul_one, mul_zero, zero_add]
  · rw [Fin.sum_univ_eq_sum_range (fun q => Real.exp (E q - M)) n]
  · rw [Fin.sum_univ_eq_sum_range (fun q => Real.exp (E q - M) * W q) n]
  · rw [Fin.sum_univ_eq_sum_range (fun q => Real.exp (E q - M) * W q * V q) n]

/-- A further full tile. -/
theorem inv_stepV (hn : 0 < n) (k : ℕ) (st : St) (h : Inv n E W V k st) :
    Inv n E W V (k + 1) (stepV (fun j : Fin n => ((E (n * k + j.val) : ℝ) : EReal))
      (fun j => ((W (n * k + j.val) : ℝ) : EReal)) (fun j => ((V (n * k + j.val) : ℝ) : EReal)) st) := by
  obtain ⟨mu, hm, hs, ht, ha⟩ := h
  obtain ⟨mu', hmu'⟩ := max_fold_real (fun j : Fin n => E (n * k + j.val)) Finset.univ mu
  rw [stepV_real (fun j : Fin n => E (n * k + j.val)) (fun j => W (n * k + j.val)) (fun j => V (n * k + j.val))
    st mu' (Real.exp (mu - mu')) _ _ _ (by rw [hm]; exact hmu')
    (by rw [hm, ← EReal.coe_sub, Ideal.exp_coe]) hs ht ha]
  refine ⟨mu', rfl, ?_, ?_, ?_⟩ <;>
    simp only [mul_add, mul_one, Finset.sum_range_add, Finset.sum_mul, EReal.coe_eq_coe_iff]
  · rw [Fin.sum_univ_eq_sum_range (fun j => Real.exp (E (n * k + j) - mu')) n]
    congr 1
    refine Finset.sum_congr rfl fun q _ => ?_
    rw [← Real.exp_add]; congr 1; ring
  · rw [Fin.sum_univ_eq_sum_range (fun j => Real.exp (E (n * k + j) - mu') * W (n * k + j)) n]
    congr 1
    refine Finset.sum_congr rfl fun q _ => ?_
    rw [mul_right_comm, ← Real.exp_add]; congr 2; ring
  · rw [Fin.sum_univ_eq_sum_range
      (fun j => Real.exp (E (n * k + j) - mu') * W (n * k + j) * V (n * k + j)) n]
    congr 1
    refine Finset.sum_congr rfl fun q _ => ?_
    rw [mul_right_comm, mul_right_comm (Real.exp _) (W q), ← Real.exp_add]; congr 3; ring

/-- A fully masked tile: its masked scores and its mask are zero. -/
theorem inv_stepI (k : ℕ) (st : St) (h : Inv n E W V k st)
    (hE : ∀ j, j < n → E (n * k + j) = 0) (hW : ∀ j, j < n → W (n * k + j) = 0) :
    Inv n E W V (k + 1) (stepI (((n : ℕ) : ℝ) : EReal) st) := by
  obtain ⟨mu, hm, hs, ht, ha⟩ := h
  obtain ⟨mu', hmu'⟩ : ∃ mu' : ℝ, max (mu : EReal) ((0 : ℝ) : EReal) = (mu' : EReal) := ⟨max mu 0, coe_max' mu 0⟩
  refine ⟨mu', ?_, ?_, ?_, ?_⟩ <;>
    simp only [stepI, hm, hs, ht, ha, ← EReal.coe_zero, hmu', ← EReal.coe_sub, Ideal.exp_coe, ← EReal.coe_mul,
      ← EReal.coe_add, EReal.coe_eq_coe_iff, mul_add, mul_one, Finset.sum_range_add, Finset.sum_mul]
  · congr 1
    · refine Finset.sum_congr rfl fun q _ => ?_
      rw [← Real.exp_add]; congr 1; ring
    · rw [Finset.sum_congr rfl (fun j hj => by rw [hE j (Finset.mem_range.1 hj)]), Finset.sum_const,
        Finset.card_range, nsmul_eq_mul]
  · rw [Finset.sum_eq_zero (s := Finset.range n) (fun j hj => by rw [hW j (Finset.mem_range.1 hj), mul_zero]),
      add_zero]
    refine Finset.sum_congr rfl fun q _ => ?_
    rw [mul_right_comm, ← Real.exp_add]; congr 2; ring
  · rw [Finset.sum_eq_zero (s := Finset.range n)
      (fun j hj => by rw [hW j (Finset.mem_range.1 hj), mul_zero, zero_mul]), add_zero]
    refine Finset.sum_congr rfl fun q _ => ?_
    rw [mul_right_comm, mul_right_comm (Real.exp _) (W q), ← Real.exp_add]; congr 3; ring

/-- The kernel's entry is the reference's. -/
theorem finish_eq {N K : ℕ} (hN : 0 < N) (hNK : n * K = N) (eps : ℝ) (heps : 0 < eps) (hW : ∀ q, 0 ≤ W q)
    (st : St) (h : Inv n E W V K st) :
    finish (eps : EReal) st
      = refRow (N := N) (eps : EReal) (fun q => ((E q.val : ℝ) : EReal)) (fun q => ((W q.val : ℝ) : EReal))
          (fun q => ((V q.val : ℝ) : EReal)) := by
  subst hNK
  obtain ⟨mu, hm, hs, ht, ha⟩ := h
  obtain ⟨M, hM⟩ := fold_real hN (fun q : Fin (n * K) => E q.val)
  have key : ∀ x q, Real.exp (E q - x) = Real.exp (-x) * Real.exp (E q) := fun x q => by
    rw [← Real.exp_add]; congr 1; ring
  obtain ⟨A, hA⟩ : ∃ A, A = ∑ q ∈ Finset.range (n * K), Real.exp (E q) * W q := ⟨_, rfl⟩
  obtain ⟨B, hB⟩ : ∃ B, B = ∑ q ∈ Finset.range (n * K), Real.exp (E q) := ⟨_, rfl⟩
  obtain ⟨C, hC⟩ : ∃ C, C = ∑ q ∈ Finset.range (n * K), Real.exp (E q) * W q * V q := ⟨_, rfl⟩
  have hBpos : 0 < B := by
    rw [hB]; exact Finset.sum_pos (fun i _ => Real.exp_pos _) (Finset.nonempty_range_iff.2 hN.ne')
  have hA0 : 0 ≤ A := by
    rw [hA]; exact Finset.sum_nonneg (fun i _ => mul_nonneg (Real.exp_pos _).le (hW i))
  have hu := Real.exp_pos (-mu)
  have hv := Real.exp_pos (-M)
  have hBm : ∑ q ∈ Finset.range (n * K), Real.exp (E q - mu) = Real.exp (-mu) * B := by
    rw [hB, Finset.mul_sum]; exact Finset.sum_congr rfl fun q _ => key mu q
  have hAm : ∑ q ∈ Finset.range (n * K), Real.exp (E q - mu) * W q = Real.exp (-mu) * A := by
    rw [hA, Finset.mul_sum]; exact Finset.sum_congr rfl fun q _ => by rw [key]; ring
  have hCm : ∑ q ∈ Finset.range (n * K), Real.exp (E q - mu) * W q * V q = Real.exp (-mu) * C := by
    rw [hC, Finset.mul_sum]; exact Finset.sum_congr rfl fun q _ => by rw [key]; ring
  have hS : ∑ q : Fin (n * K), Real.exp (E q.val - M) = Real.exp (-M) * B := by
    rw [Fin.sum_univ_eq_sum_range (fun q => Real.exp (E q - M)) (n * K), hB, Finset.mul_sum]
    exact Finset.sum_congr rfl fun q _ => key M q
  have hS0 : Real.exp (-M) * B ≠ 0 := (mul_pos hv hBpos).ne'
  have hT : ∑ q : Fin (n * K), Real.exp (E q.val - M) * (1 / (Real.exp (-M) * B)) * W q.val = A / B := by
    rw [Fin.sum_univ_eq_sum_range (fun q => Real.exp (E q - M) * (1 / (Real.exp (-M) * B)) * W q) (n * K), hA,
      Finset.sum_div]
    refine Finset.sum_congr rfl fun q _ => ?_
    rw [key]; field_simp
  have hT0 : A / B + eps ≠ 0 := (add_pos_of_nonneg_of_pos (div_nonneg hA0 hBpos.le) heps).ne'
  have hden : Real.exp (-mu) * A + eps * (Real.exp (-mu) * B) ≠ 0 :=
    (add_pos_of_nonneg_of_pos (mul_nonneg hu.le hA0) (mul_pos heps (mul_pos hu hBpos))).ne'
  have hAB : A + eps * B ≠ 0 := (add_pos_of_nonneg_of_pos hA0 (mul_pos heps hBpos)).ne'
  have hR : ∑ q ∈ Finset.range (n * K),
      Real.exp (E q - M) * (1 / (Real.exp (-M) * B)) * W q * (1 / (A / B + eps)) * V q = C / (A + eps * B) := by
    rw [hC, Finset.sum_div]
    refine Finset.sum_congr rfl fun q _ => ?_
    rw [key]; field_simp
  rw [refRow_real eps (fun q : Fin (n * K) => E q.val) (fun q => W q.val) (fun q => V q.val) M _ _ hM hS hS0 hT hT0,
    Fin.sum_univ_eq_sum_range
      (fun q => Real.exp (E q - M) * (1 / (Real.exp (-M) * B)) * W q * (1 / (A / B + eps)) * V q) (n * K),
    hR, finish, ha, ht, hs, hAm, hBm, hCm, ← EReal.coe_mul, ← EReal.coe_add, Ideal.div_coe hden, ← EReal.coe_mul,
    EReal.coe_eq_coe_iff]
  field_simp

end Attn

end
-- ==== Proof.Point.lean ====
/-
  The running statistics after every grid point, and the output block of a row's last tile.

  Grid point n is (b, qi, ki) = (n / 16, n / 8 mod 2, n mod 8).  For query row r of the block (row p = 1024 qi + r of
  batch b) and output column h, the four scratch entries after point n satisfy Attn.Inv for the first 256 (ki + 1)
  keys of that row: by induction on the point — the first tile of a row from the reset values (Attn.inv_first), a
  later tile with a valid key by Attn.inv_stepV, a fully masked tile by Attn.inv_stepI (its masked scores and its
  mask vanish).  At ki = 7 the output entry is Attn.finish of them, which Attn.finish_eq identifies with the
  reference's entry Attn.outEntry.
-/
import proofs.«426862_j69552700391693_2_alg».proof.Proof.ScrValid
import proofs.«426862_j69552700391693_2_alg».proof.Proof.ScrMasked
import proofs.«426862_j69552700391693_2_alg».proof.Proof.PayValid
import proofs.«426862_j69552700391693_2_alg».proof.Proof.PayRest
import proofs.«426862_j69552700391693_2_alg».proof.Proof.Conds
import proofs.«426862_j69552700391693_2_alg».proof.Proof.Blocks
import proofs.«426862_j69552700391693_2_alg».proof.Proof.Softmax
import proofs.«426862_j69552700391693_2_alg».proof.Proof.Spec

set_option maxRecDepth 16384

noncomputable section

namespace Cert.KernelIdeal.Point

open Cert.KernelIdeal Cert.KernelIdeal.Gen Cert.KernelIdeal.Steps Cert.KernelIdeal.Tile Cert.KernelIdeal.Conds
open Cert.KernelIdeal.Blocks Cert.KernelIdeal.ScrValid Cert.KernelIdeal.PayValid
open Cert.KernelIdeal.PayRest
open Idealize.ShloMosaic Idealize.ShloMosaic.TcCoe Idealize.ShloMosaic.ValueIdx Idealize.SL.Sem

variable (m : (ℓ : Loc nD τ sig) → Buf (Elt Ideal) ℓ)

/-! ## The argument arrays, and what the precondition says of them -/

abbrev aP : Attn.SPQ.Idx → EReal := m (((0 : Dev nD) : Thread nD τ).loc main_arg0)
abbrev aQ : Attn.SPQ.Idx → EReal := m (((0 : Dev nD) : Thread nD τ).loc main_arg1)
abbrev aW : Attn.SWt.Idx → EReal := m (((0 : Dev nD) : Thread nD τ).loc main_arg2)
abbrev aB : Attn.SBt.Idx → EReal := m (((0 : Dev nD) : Thread nD τ).loc main_arg3)
abbrev aL : Attn.SLen.Idx → BitVec 32 := lens m 0

/-- Every float entry is a real number and every length lies in [1, 2048]. -/
structure Good : Prop where
  len : ∀ b : Fin 8, 1 ≤ (aL m (ix1 b)).toInt ∧ (aL m (ix1 b)).toInt ≤ 2048
  fP : ∀ i, ∃ x : ℝ, aP m i = (x : EReal)
  fQ : ∀ i, ∃ x : ℝ, aQ m i = (x : EReal)
  fW : ∀ i, ∃ x : ℝ, aW m i = (x : EReal)
  fB : ∀ i, ∃ x : ℝ, aB m i = (x : EReal)

/-! ## Real-valued row data -/

theorem sum_real {ι : Type*} (s : Finset ι) (f : ι → EReal) (hf : ∀ i, ∃ x : ℝ, f i = (x : EReal)) :
    ∃ x : ℝ, ∑ i ∈ s, f i = (x : EReal) := by
  classical
  induction s using Finset.induction_on with
  | empty => exact ⟨0, by simp⟩
  | insert a s ha ih =>
    obtain ⟨x, hx⟩ := ih
    obtain ⟨y, hy⟩ := hf a
    exact ⟨y + x, by rw [Finset.sum_insert ha, hx, hy, EReal.coe_add]⟩

theorem mul_real {a b : EReal} (ha : ∃ x : ℝ, a = (x : EReal)) (hb : ∃ x : ℝ, b = (x : EReal)) :
    ∃ x : ℝ, a * b = (x : EReal) := by
  obtain ⟨x, rfl⟩ := ha; obtain ⟨y, rfl⟩ := hb; exact ⟨x * y, (EReal.coe_mul x y).symm⟩

theorem add_real {a b : EReal} (ha : ∃ x : ℝ, a = (x : EReal)) (hb : ∃ x : ℝ, b = (x : EReal)) :
    ∃ x : ℝ, a + b = (x : EReal) := by
  obtain ⟨x, rfl⟩ := ha; obtain ⟨y, rfl⟩ := hb; exact ⟨x + y, (EReal.coe_add x y).symm⟩

theorem coe_toReal_of_real {a : EReal} (ha : ∃ x : ℝ, a = (x : EReal)) : ((a.toReal : ℝ) : EReal) = a := by
  obtain ⟨x, rfl⟩ := ha; rfl

variable {m}

theorem score_real (g : Good m) (b : Fin 8) (p q : Fin 2048) :
    ∃ x : ℝ, Attn.score (aP m) (aQ m) (aW m) (aB m) b p q = (x : EReal) := by
  unfold Attn.score Attn.key
  exact sum_real _ _ fun o => mul_real (g.fP _) (add_real (sum_real _ _ fun h => mul_real (g.fQ _) (g.fW _)) (g.fB _))

theorem mask_real (b : Fin 8) (q : Fin 2048) : ∃ x : ℝ, Attn.mask (aL m) b q = (x : EReal) := by
  unfold Attn.mask; split_ifs
  · exact ⟨1, rfl⟩
  · exact ⟨0, rfl⟩

variable (m)

/-- The masked scores of row p of batch b, the mask, and column h of the values, as real functions of the key. -/
def sE (b : Fin 8) (p : Fin 2048) (q : ℕ) : ℝ :=
  if hq : q < 2048 then (Attn.score (aP m) (aQ m) (aW m) (aB m) b p ⟨q, hq⟩ * Attn.mask (aL m) b ⟨q, hq⟩).toReal else 0
def sW (b : Fin 8) (q : ℕ) : ℝ := if hq : q < 2048 then (Attn.mask (aL m) b ⟨q, hq⟩).toReal else 0
def sV (b : Fin 8) (h : Fin 1024) (q : ℕ) : ℝ := if hq : q < 2048 then (aQ m (ix3 b ⟨q, hq⟩ h)).toReal else 0

variable {m}

theorem sE_coe (g : Good m) (b : Fin 8) (p q : Fin 2048) :
    ((sE m b p q.val : ℝ) : EReal) = Attn.score (aP m) (aQ m) (aW m) (aB m) b p q * Attn.mask (aL m) b q := by
  unfold sE; rw [dif_pos q.isLt]; exact coe_toReal_of_real (mul_real (score_real g b p q) (mask_real b q))

theorem sW_coe (b : Fin 8) (q : Fin 2048) : ((sW m b q.val : ℝ) : EReal) = Attn.mask (aL m) b q := by
  unfold sW; rw [dif_pos q.isLt]; exact coe_toReal_of_real (mask_real b q)

theorem sV_coe (g : Good m) (b : Fin 8) (h : Fin 1024) (q : Fin 2048) :
    ((sV m b h q.val : ℝ) : EReal) = aQ m (ix3 b q h) := by
  unfold sV; rw [dif_pos q.isLt]; exact coe_toReal_of_real (g.fQ _)

theorem sW_nonneg (b : Fin 8) (q : ℕ) : 0 ≤ sW m b q := by
  unfold sW; split_ifs with hq
  · unfold Attn.mask; split_ifs <;> simp
  · exact le_rfl

/-- Past the length the mask vanishes, and with it the masked score. -/
theorem sW_zero (b : Fin 8) (q : ℕ) (hq : q < 2048) (hlen : (aL m (ix1 b)).toInt ≤ (q : Int)) : sW m b q = 0 := by
  unfold sW; rw [dif_pos hq]; unfold Attn.mask; rw [if_neg (by dsimp only; omega)]; simp

theorem sE_zero (g : Good m) (b : Fin 8) (p : Fin 2048) (q : ℕ) (hq : q < 2048) (hlen : (aL m (ix1 b)).toInt ≤ (q : Int)) :
    sE m b p q = 0 := by
  unfold sE; rw [dif_pos hq]
  obtain ⟨x, hx⟩ := score_real g b p ⟨q, hq⟩
  rw [hx]; unfold Attn.mask; rw [if_neg (by dsimp only; omega), mul_zero]; simp

/-! ## One key tile read off the argument arrays -/

section tile

theorem bP (hO : Ok m) (c : Dev nD) (t : Fin (cfgM m hO).N) (b : Fin 8) (qi : Fin 2)
    (hb : (grid0.coords t 0).val = b.val) (hq : (grid0.coords t 1).val = qi.val)
    (r o : Fin 1024) (p : Fin 2048) (hp : p.val = 1024 * qi.val + r.val) :
    blkP m hO c t (ix3 (0 : Fin 1) r o) = aP m (ix3 b p o) := by
  obtain rfl : c = 0 := Subsingleton.elim _ _
  exact blkP_at m hO 0 t b qi hb hq r o p hp

theorem bQ (hO : Ok m) (c : Dev nD) (t : Fin (cfgM m hO).N) (b : Fin 8) (kc : Fin 8)
    (hidx : cc0_transform_1 k0_off1_inb numel1_S1 (tbl m) (grid0.coords t) = ![b.val, kc.val, 0])
    (j : Fin 256) (h : Fin 1024) (q : Fin 2048) (hq : q.val = 256 * kc.val + j.val) :
    blkQ m hO c t (ix3 (0 : Fin 1) j h) = aQ m (ix3 b q h) := by
  obtain rfl : c = 0 := Subsingleton.elim _ _
  exact blkQ_at m hO 0 t b kc hidx j h q hq

theorem bW (hO : Ok m) (c : Dev nD) (t : Fin (cfgM m hO).N) (o h : Fin 1024) :
    blkW m hO c t (ix2 o h) = aW m (ix2 o h) := by
  obtain rfl : c = 0 := Subsingleton.elim _ _
  exact blkW_at m hO 0 t o h

theorem bB (hO : Ok m) (c : Dev nD) (t : Fin (cfgM m hO).N) (o : Fin 1024) :
    blkB m hO c t (ix1 o) = aB m (ix1 o) := by
  obtain rfl : c = 0 := Subsingleton.elim _ _
  exact blkB_at m hO 0 t o

/-- The tile's score of query row r against key j is the specification's score of the array rows they stage. -/
theorem tile_score (hO : Ok m) (c : Dev nD) (t : Fin (cfgM m hO).N) (b : Fin 8) (qi : Fin 2) (kc : Fin 8)
    (hb : (grid0.coords t 0).val = b.val) (hq : (grid0.coords t 1).val = qi.val)
    (hidx : cc0_transform_1 k0_off1_inb numel1_S1 (tbl m) (grid0.coords t) = ![b.val, kc.val, 0])
    (r : Fin 1024) (j : Fin 256) (p q : Fin 2048) (hp : p.val = 1024 * qi.val + r.val) (hq' : q.val = 256 * kc.val + j.val) :
    tileScore (blkP m hO c t) (blkQ m hO c t) (blkW m hO c t) (blkB m hO c t) r j
      = Attn.score (aP m) (aQ m) (aW m) (aB m) b p q := by
  unfold tileScore Attn.score Attn.key
  refine Finset.sum_congr rfl fun o _ => ?_
  rw [bP hO c t b qi hb hq r o p hp, bB hO c t o]
  congr 2
  refine Finset.sum_congr rfl fun h _ => ?_
  rw [bQ hO c t b kc hidx j h q hq', bW hO c t o h]

/-- The tile's mask at key j is the specification's mask at the key position 256 ki + j. -/
theorem tile_mask (t : Fin grid0.N) (b : Fin 8) (ki : Fin 8)
    (hb : (grid0.coords t 0).val = b.val) (hk : (grid0.coords t 2).val = ki.val)
    (j : Fin 256) (q : Fin 2048) (hq' : q.val = 256 * ki.val + j.val) :
    tileMask (lenWord m (grid0.coords t)) (tileStart (grid0.coords t)) j = Attn.mask (aL m) b q := by
  have hs : tileStart (grid0.coords t) = Scalar.muli (BitVec.ofNat 32 ki.val) 256#32 := by
    show Scalar.muli (BitVec.ofNat 32 (grid0.coords t 2).val) 256#32 = _; rw [hk]
  have hi : (ix1 (grid0.coords t 0) : S8.Idx) = ix1 b := congrArg ix1 (Fin.ext hb)
  rw [hs, tileMask_eq, lenWord_eq, hi]
  unfold Attn.mask
  rw [hq']

end tile

/-! ## The statistics after every point -/

/-- The four scratch buffers read at query row r and output column h. -/
def stAt (s : Vec Ideal S1024x1 .f32 × Vec Ideal S1024x1 .f32 × Vec Ideal S1024x1 .f32 × Vec Ideal S1024x1024 .f32)
    (r h : Fin 1024) : Attn.St :=
  (s.1 (ix2 r (0 : Fin 1)), s.2.1 (ix2 r (0 : Fin 1)), s.2.2.1 (ix2 r (0 : Fin 1)), s.2.2.2 (ix2 r h))

theorem cond1_of_len (t : Fin grid0.N) (b : Fin 8) (hb : (grid0.coords t 0).val = b.val) :
    cond0_1 (grid0.coords t) (lenWord m (grid0.coords t))
      ↔ ((256 * (grid0.coords t 2).val : ℕ) : Int) < (aL m (ix1 b)).toInt := by
  have hi : (ix1 (grid0.coords t 0) : S8.Idx) = ix1 b := congrArg ix1 (Fin.ext hb)
  rw [cond1_iff, lenWord_eq, hi]

theorem inv_point (g : Good m) (hO : Ok m) (c : Dev nD) : ∀ (n : ℕ) (hn : n < (cfgM m hO).N) (r h : Fin 1024)
    (b : Fin 8) (qi : Fin 2) (p : Fin 2048), b.val = n / 16 → qi.val = n / 8 % 2 → p.val = 1024 * qi.val + r.val →
    Attn.Inv 256 (sE m b p) (sW m b) (sV m b h) (n % 8 + 1) (stAt (outsAt0 m hO c n hn).2 r h) := by
  have hN : (cfgM m hO).N = 128 := N_0
  intro n
  induction n with
  | zero =>
    intro hn r h b qi p hb hq hp
    let t : Fin (cfgM m hO).N := ⟨0, hn⟩
    obtain ⟨c0, c1, c2⟩ := coords_val (t : Fin grid0.N)
    have hb' : (grid0.coords t 0).val = b.val := by rw [c0, hb]
    have hq' : (grid0.coords t 1).val = qi.val := by rw [c1, hq]
    have hk' : (grid0.coords t 2).val = (0 : Fin 8).val := by rw [c2]; rfl
    have hv : cond0_1 (grid0.coords t) (lenWord m (grid0.coords t)) := by
      rw [cond1_of_len t b hb', c2]; have h1 := (g.len b).1
      have h2 : ((256 * ((t : Fin (cfgM m hO).N).val % 8) : ℕ) : Int) = 0 := by show ((256 * (0 % 8) : ℕ) : Int) = 0; norm_num
      rw [h2]; omega
    have hn2 : ¬cond0_2 (grid0.coords t) (lenWord m (grid0.coords t)) := fun h2 => (cond2_iff _ _).mp h2 hv
    have hidx := kv_index m (grid0.coords t) g.len hv
    rw [hb', hk'] at hidx
    show Attn.Inv 256 _ _ _ (0 % 8 + 1) (stAt (outsAt0 m hO c t.val t.isLt).2 r h)
    rw [scr_first m hO c t rfl hv hn2]
    unfold stAt
    dsimp only
    rw [valid_at, reset_at]
    have e1 : (fun j : Fin 256 => tileScore (blkP m hO c t) (blkQ m hO c t) (blkW m hO c t) (blkB m hO c t) r j
        * tileMask (lenWord m (grid0.coords t)) (tileStart (grid0.coords t)) j)
        = fun j : Fin 256 => ((sE m b p j.val : ℝ) : EReal) := by
      funext j
      have hj : j.val < 2048 := by have := j.isLt; omega
      rw [tile_score hO c t b qi 0 hb' hq' hidx r j p ⟨j.val, hj⟩ hp (by show j.val = 256 * 0 + j.val; omega),
        tile_mask t b 0 hb' hk' j ⟨j.val, hj⟩ (by show j.val = 256 * 0 + j.val; omega)]
      exact (sE_coe g b p ⟨j.val, hj⟩).symm
    have e2 : (fun j : Fin 256 => tileMask (lenWord m (grid0.coords t)) (tileStart (grid0.coords t)) j)
        = fun j : Fin 256 => ((sW m b j.val : ℝ) : EReal) := by
      funext j
      have hj : j.val < 2048 := by have := j.isLt; omega
      rw [tile_mask t b 0 hb' hk' j ⟨j.val, hj⟩ (by show j.val = 256 * 0 + j.val; omega)]
      exact (sW_coe b ⟨j.val, hj⟩).symm
    have e3 : (fun j : Fin 256 => blkQ m hO c t (ix3 (0 : Fin 1) j h)) = fun j : Fin 256 => ((sV m b h j.val : ℝ) : EReal) := by
      funext j
      have hj : j.val < 2048 := by have := j.isLt; omega
      rw [bQ hO c t b 0 hidx j h ⟨j.val, hj⟩ (by show j.val = 256 * 0 + j.val; omega)]
      exact (sV_coe g b h ⟨j.val, hj⟩).symm
    rw [e1, e2, e3]
    exact Attn.inv_first (sE m b p) (sW m b) (sV m b h) (by norm_num)
  | succ n ih =>
    intro hn r h b qi p hb hq hp
    let t : Fin (cfgM m hO).N := ⟨n + 1, hn⟩
    have hn128 : n + 1 < 128 := hN ▸ hn
    obtain ⟨c0, c1, c2⟩ := coords_val (t : Fin grid0.N)
    have hb' : (grid0.coords t 0).val = b.val := by rw [c0, hb]
    have hq' : (grid0.coords t 1).val = qi.val := by rw [c1, hq]
    have hklt : (n + 1) % 8 < 8 := Nat.mod_lt _ (by norm_num)
    have hk' : (grid0.coords t 2).val = (⟨(n + 1) % 8, hklt⟩ : Fin 8).val := c2
    by_cases h0 : (n + 1) % 8 = 0
    · -- a row's first tile
      have hv : cond0_1 (grid0.coords t) (lenWord m (grid0.coords t)) := by
        rw [cond1_of_len t b hb', c2]; have := (g.len b).1; show ((256 * ((n + 1) % 8) : ℕ) : Int) < _; rw [h0]; simp only [Nat.mul_zero, Nat.cast_zero]; omega
      have hn2 : ¬cond0_2 (grid0.coords t) (lenWord m (grid0.coords t)) := fun h2 => (cond2_iff _ _).mp h2 hv
      have hidx := kv_index m (grid0.coords t) g.len hv
      rw [hb', hk'] at hidx
      show Attn.Inv 256 _ _ _ ((n + 1) % 8 + 1) (stAt (outsAt0 m hO c t.val t.isLt).2 r h)
      rw [scr_first m hO c t h0 hv hn2, h0]
      unfold stAt
      dsimp only
      rw [valid_at, reset_at]
      have hk0 : (⟨(n + 1) % 8, hklt⟩ : Fin 8) = 0 := Fin.ext h0
      have e1 : (fun j : Fin 256 => tileScore (blkP m hO c t) (blkQ m hO c t) (blkW m hO c t) (blkB m hO c t) r j
          * tileMask (lenWord m (grid0.coords t)) (tileStart (grid0.coords t)) j)
          = fun j : Fin 256 => ((sE m b p j.val : ℝ) : EReal) := by
        funext j
        have hj : j.val < 2048 := by have := j.isLt; omega
        rw [tile_score hO c t b qi _ hb' hq' hidx r j p ⟨j.val, hj⟩ hp (by show j.val = 256 * ((n + 1) % 8) + j.val; omega),
          tile_mask t b _ hb' hk' j ⟨j.val, hj⟩ (by show j.val = 256 * ((n + 1) % 8) + j.val; omega)]
        exact (sE_coe g b p ⟨j.val, hj⟩).symm
      have e2 : (fun j : Fin 256 => tileMask (lenWord m (grid0.coords t)) (tileStart (grid0.coords t)) j)
          = fun j : Fin 256 => ((sW m b j.val : ℝ) : EReal) := by
        funext j
        have hj : j.val < 2048 := by have := j.isLt; omega
        rw [tile_mask t b _ hb' hk' j ⟨j.val, hj⟩ (by show j.val = 256 * ((n + 1) % 8) + j.val; omega)]
        exact (sW_coe b ⟨j.val, hj⟩).symm
      have e3 : (fun j : Fin 256 => blkQ m hO c t (ix3 (0 : Fin 1) j h)) = fun j : Fin 256 => ((sV m b h j.val : ℝ) : EReal) := by
        funext j
        have hj : j.val < 2048 := by have := j.isLt; omega
        rw [bQ hO c t b _ hidx j h ⟨j.val, hj⟩ (by show j.val = 256 * ((n + 1) % 8) + j.val; omega)]
        exact (sV_coe g b h ⟨j.val, hj⟩).symm
      rw [e1, e2, e3]
      exact Attn.inv_first (sE m b p) (sW m b) (sV m b h) (by norm_num)
    · -- a later tile of the same row: the point before belongs to the same (b, qi)
      have ih' := ih (Nat.lt_of_succ_lt hn) r h b qi p (by omega) (by omega) hp
      have hk1 : n % 8 + 1 = (n + 1) % 8 := by omega
      rw [hk1] at ih'
      by_cases hv : cond0_1 (grid0.coords t) (lenWord m (grid0.coords t))
      · have hn2 : ¬cond0_2 (grid0.coords t) (lenWord m (grid0.coords t)) := fun h2 => (cond2_iff _ _).mp h2 hv
        have hidx := kv_index m (grid0.coords t) g.len hv
        rw [hb', hk'] at hidx
        show Attn.Inv 256 _ _ _ ((n + 1) % 8 + 1) (stAt (outsAt0 m hO c t.val t.isLt).2 r h)
        rw [scr_valid m hO c t h0 hv hn2]
        unfold stAt
        dsimp only
        rw [valid_at]
        have hlt2048 : ∀ j : Fin 256, 256 * ((n + 1) % 8) + j.val < 2048 := fun j => by have := j.isLt; omega
        have e1 : (fun j : Fin 256 => tileScore (blkP m hO c t) (blkQ m hO c t) (blkW m hO c t) (blkB m hO c t) r j
            * tileMask (lenWord m (grid0.coords t)) (tileStart (grid0.coords t)) j)
            = fun j : Fin 256 => ((sE m b p (256 * ((n + 1) % 8) + j.val) : ℝ) : EReal) := by
          funext j
          rw [tile_score hO c t b qi _ hb' hq' hidx r j p ⟨_, hlt2048 j⟩ hp rfl,
            tile_mask t b _ hb' hk' j ⟨_, hlt2048 j⟩ rfl]
          exact (sE_coe g b p ⟨_, hlt2048 j⟩).symm
        have e2 : (fun j : Fin 256 => tileMask (lenWord m (grid0.coords t)) (tileStart (grid0.coords t)) j)
            = fun j : Fin 256 => ((sW m b (256 * ((n + 1) % 8) + j.val) : ℝ) : EReal) := by
          funext j
          rw [tile_mask t b _ hb' hk' j ⟨_, hlt2048 j⟩ rfl]
          exact (sW_coe b ⟨_, hlt2048 j⟩).symm
        have e3 : (fun j : Fin 256 => blkQ m hO c t (ix3 (0 : Fin 1) j h))
            = fun j : Fin 256 => ((sV m b h (256 * ((n + 1) % 8) + j.val) : ℝ) : EReal) := by
          funext j
          rw [bQ hO c t b _ hidx j h ⟨_, hlt2048 j⟩ rfl]
          exact (sV_coe g b h ⟨_, hlt2048 j⟩).symm
        rw [e1, e2, e3]
        exact Attn.inv_stepV (sE m b p) (sW m b) (sV m b h) (by norm_num) ((n + 1) % 8) _ ih'
      · have hn2 : cond0_2 (grid0.coords t) (lenWord m (grid0.coords t)) := (cond2_iff _ _).mpr hv
        show Attn.Inv 256 _ _ _ ((n + 1) % 8 + 1) (stAt (outsAt0 m hO c t.val t.isLt).2 r h)
        rw [ScrMasked.scr_masked m hO c t h0 hv hn2]
        unfold stAt
        dsimp only
        rw [masked_at]
        have hlen : (aL m (ix1 b)).toInt ≤ ((256 * ((n + 1) % 8) : ℕ) : Int) := by
          have := (cond1_of_len t b hb').not.mp hv; rw [c2] at this; exact not_lt.mp this
        refine Attn.inv_stepI (sE m b p) (sW m b) (sV m b h) ((n + 1) % 8) _ ih' (fun j hj => ?_) (fun j hj => ?_)
        · exact sE_zero g b p _ (by omega) (by push_cast at hlen ⊢; omega)
        · exact sW_zero b _ (by omega) (by push_cast at hlen ⊢; omega)

/-! ## The output block of a row's last tile -/

theorem eps_real : ∃ e : ℝ, 0 < e ∧ Ideal.ofBits .f32 0x29E12E13#32 = (e : EReal) := by
  refine ⟨_, ?_, by simp [Ideal.ofBits, Ideal.ieee]; rfl⟩
  norm_num

theorem out_at (g : Good m) (hO : Ok m) (c : Dev nD) (t : Fin (cfgM m hO).N) (h7 : t.val % 8 = 7) (r h : Fin 1024)
    (b : Fin 8) (qi : Fin 2) (p : Fin 2048) (hb : b.val = t.val / 16) (hq : qi.val = t.val / 8 % 2)
    (hp : p.val = 1024 * qi.val + r.val) :
    (outsAt0 m hO c t.val t.isLt).1 (ix3 (0 : Fin 1) r h) = Attn.outEntry (aP m) (aQ m) (aW m) (aB m) (aL m) b p h := by
  have hinv := inv_point g hO c t.val t.isLt r h b qi p hb hq hp
  rw [h7] at hinv
  have hlast : (outsAt0 m hO c t.val t.isLt).1
      = lastOut (outsAt0 m hO c t.val t.isLt).2.2.2.1 (outsAt0 m hO c t.val t.isLt).2.2.1 (outsAt0 m hO c t.val t.isLt).2.2.2.2 := by
    by_cases hv : cond0_1 (grid0.coords t) (lenWord m (grid0.coords t))
    · exact out_last_valid m hO c t h7 hv fun h2 => (cond2_iff _ _).mp h2 hv
    · exact ScrMasked.out_last_masked m hO c t h7 hv ((cond2_iff _ _).mpr hv)
  rw [hlast, last_at _ _ _ r h ((outsAt0 m hO c t.val t.isLt).2.1 (ix2 r (0 : Fin 1)))]
  obtain ⟨e, he0, he⟩ := eps_real
  have := Attn.finish_eq (n := 256) (N := 2048) (K := 8) (sE m b p) (sW m b) (sV m b h) (by norm_num) (by norm_num) e he0
    (sW_nonneg b) _ hinv
  unfold stAt at this
  rw [he, this]
  unfold Attn.outEntry Attn.eps
  rw [he]
  congr 1
  · funext q; exact sE_coe g b p q
  · funext q; exact sW_coe b q
  · funext q; exact sV_coe g b h q

end Cert.KernelIdeal.Point

end
-- ==== Proof.Final.lean ====
/-
  The result array after the run.

  The output window is written back at the last tile of every row block (ki = 7); what it writes is the block of
  Attn.G at (b, qi): entry (r, h) is Attn.outEntry at row 1024 qi + r of batch b.  Those blocks cover the array,
  so the run ends with the result array at Attn.G of the arguments, the arguments unchanged.
-/
import proofs.«426862_j69552700391693_2_alg».proof.Proof.Point

set_option maxRecDepth 16384

noncomputable section

namespace Cert.KernelIdeal.Final

open Cert.KernelIdeal Cert.KernelIdeal.Gen Cert.KernelIdeal.Conds Cert.KernelIdeal.Blocks Cert.KernelIdeal.Point
open Idealize.ShloMosaic Idealize.ShloMosaic.TcCoe Idealize.ShloMosaic.ValueIdx Idealize.SL.Sem
open Idealize.ShloMosaic.Pipeline (Dat)

variable {m : (ℓ : Loc nD τ sig) → Buf (Elt Ideal) ℓ} (ρ : Dev nD → PrngReg)

/-- The result array the specification assigns to the launch memory's arguments. -/
abbrev result (m : (ℓ : Loc nD τ sig) → Buf (Elt Ideal) ℓ) : S8x2048x1024.Idx → EReal :=
  Attn.G (aP m) (aQ m) (aW m) (aB m) (aL m)

/-- What a write-back point writes is its block of the specification's array. -/
theorem flushed_eq (g : Good m) (hO : Ok m) (c : Dev nD) (t : Fin (cfgM m hO).N)
    (hf : ((cfgM m hO).win 4).flush t = true) :
    (dats m hO 0 c).flushed 4 t = (((cfgM m hO).win 4).blk t).view.read (Elt Ideal) (result m) := by
  have hN : (cfgM m hO).N = 128 := N_0
  have h7 : t.val % 8 = 7 := (flush0_4 (adm m hO) t).mp hf
  have ht : t.val < 128 := hN ▸ t.isLt
  obtain ⟨c0, c1, c2⟩ := coords_val (t : Fin grid0.N)
  show (dats m hO 0 c).after 4 t = _
  rw [after0_4]
  refine funext fun (y : S1x1024x1024.Idx) => ?_
  obtain ⟨z, r, h, rfl⟩ : ∃ (z : Fin 1) (r h : Fin 1024), y = ix3 z r h := ⟨y 0, y 1, y 2, eq_ix3 y⟩
  obtain rfl : z = 0 := Subsingleton.elim _ _
  have hr := r.isLt
  rw [out_at g hO c t h7 r h ⟨t.val / 16, by omega⟩ ⟨t.val / 8 % 2, by omega⟩ ⟨1024 * (t.val / 8 % 2) + r.val, by omega⟩ rfl rfl rfl]
  exact (outBlk_at m hO c t ⟨t.val / 16, by omega⟩ ⟨t.val / 8 % 2, by omega⟩ c0 c1 (result m) r h
    ⟨1024 * (t.val / 8 % 2) + r.val, by omega⟩ rfl).symm

/-- So the result array ends at the specification's. -/
theorem final (g : Good m) (hO : Ok m) (c : Dev nD) : (dats m hO 0 c).arrAt 4 (cfgM m hO).N = result m :=
  (dats m hO 0 c).arrAt_eq_of_cover 4 (result m) (fun t hf => flushed_eq g hO c t hf) (out_cover m hO)

/-- The run: the result array at the specification's array of the arguments, the arguments unchanged. -/
theorem run (g : Good m) (hO : Ok m) :
    θ_run defs (onTc (τ := τ) (main (F := Ideal))) ⟨m, fun _ => 0, ρ⟩ fun r => ∀ c : Dev nD,
      r.2.mem ((c.tc : Thread nD τ).loc main_v0) = result m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 4).trans (final g hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).2 main_arg4 (by decide : main_arg4 ∈ Pipeline.restRefs sig spec0)).trans (V_main_arg4 m c)⟩)
    (run_main m ρ hO)

end Cert.KernelIdeal.Final

end
-- ==== Proof.lean ====
/-
  Fused masked attention with an online softmax, against its jnp reference.

  Both programs compute, for batch b, query row p and output column h,
      out[b, p, h] = sum_q att[b, p, q] * proj_q[b, q, h],
  where att is the softmax over the keys q of scores[b, p, q] * mask[b, q], multiplied by the mask again and
  divided by (its row sum + 1e-13); scores = proj_p (proj_q W_t^T + b_t)^T and mask[b, q] = 1 for q < seq_len[b].
  The reference does this whole; the kernel walks the keys in eight tiles of 256 per block of 1024 query rows,
  carrying a running maximum m, the running sums s (all keys) and t (valid keys) of exp(score - m) and the
  running weighted sum acc of the value rows, rescaled by exp(m_old - m_new) at every tile; a tile beyond the
  length contributes 256 * exp(0 - m) to s only.  The output is acc / (t + 1e-13 * s).  Over the reals the shift m
  cancels and S * (T / S + eps) = T + eps * S, so the two agree (Attn.finish_eq); the running statistics are
  tracked by induction over the grid points (Point.inv_point).

  The key/value window's block index is min(ki, ceil(seq_len[b] / 256) - 1): it lies inside proj_q exactly when
  1 <= seq_len[b] (and seq_len[b] + 255 does not wrap), which the precondition states as 1 <= seq_len <= 2048.
-/
import proofs.«426862_j69552700391693_2_alg».proof.Defs
import proofs.«426862_j69552700391693_2_alg».proof.Proof.Gen.Kernel
import proofs.«426862_j69552700391693_2_alg».proof.Proof.Gen.Kernel.Skeleton
import proofs.«426862_j69552700391693_2_alg».proof.Proof.Gen.Kernel.Launch
import proofs.«426862_j69552700391693_2_alg».proof.Proof.Gen.Kernel.Points
import proofs.«426862_j69552700391693_2_alg».proof.Proof.Gen.Kernel.Frame
import proofs.«426862_j69552700391693_2_alg».proof.Proof.Gen.KernelIdeal
import proofs.«426862_j69552700391693_2_alg».proof.Proof.Gen.KernelIdeal.Skeleton
import proofs.«426862_j69552700391693_2_alg».proof.Proof.Gen.KernelIdeal.Launch
import proofs.«426862_j69552700391693_2_alg».proof.Proof.Gen.KernelIdeal.Points
import proofs.«426862_j69552700391693_2_alg».proof.Proof.Gen.KernelIdeal.Frame
import proofs.«426862_j69552700391693_2_alg».proof.Proof.Gen.ReferenceIdeal
import proofs.«426862_j69552700391693_2_alg».proof.Proof.Gen.ReferenceIdeal.Run
import proofs.«426862_j69552700391693_2_alg».proof.Proof.Gen.ReferenceIdeal.Read
import proofs.«426862_j69552700391693_2_alg».proof.Proof.Gen.Pre_finite_inputs
import proofs.«426862_j69552700391693_2_alg».proof.Proof.PreFacts
import proofs.«426862_j69552700391693_2_alg».proof.Proof.CondsK
import proofs.«426862_j69552700391693_2_alg».proof.Proof.RefValue
import proofs.«426862_j69552700391693_2_alg».proof.Proof.Final
import Idealize.ShloMosaic.Adequacy
import Idealize.ShloMosaic.Init

noncomputable section

namespace Cert.Proof

open Idealize.ShloMosaic Idealize.ShloMosaic.TcCoe Idealize.SL.Sem

/-- Under the precondition every float entry of the idealized kernel's arguments is real and every length is in
    range. -/
theorem good_of_pre (m : (ℓ : Loc Cert.KernelIdeal.nD Cert.KernelIdeal.τ Cert.KernelIdeal.sig) → Buf (Elt Ideal) ℓ)
    (hpre : Cert.Pre_KernelIdeal m) : Cert.KernelIdeal.Point.Good m :=
  have hf := Attn.PreFacts.finite _ _ _ _ _ (hpre 0)
  ⟨Attn.PreFacts.len_range (F := Ideal) _ _ _ _ _ (hpre 0), hf.1, hf.2.1, hf.2.2.1, hf.2.2.2⟩

/-- The word-level kernel's frame: the lengths being in range, the key/value blocks lie inside proj_q. -/
theorem frame_k : Cert.frame_Kernel := fun m ρ hpre =>
  Cert.Kernel.Gen.frame m ρ (Cert.Kernel.Conds.ok_of_len m (Attn.PreFacts.len_range (F := Bits) _ _ _ _ _ (hpre 0)))

theorem frame_ki : Cert.frame_KernelIdeal := fun m ρ hpre =>
  Cert.KernelIdeal.Gen.frame m ρ (Cert.KernelIdeal.Conds.ok_of_len m (good_of_pre m hpre).len)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at Attn.G of the (agreeing) arguments. -/
theorem algebraic : Cert.algebraic_KernelIdeal_ReferenceIdeal := by
  intro m ρ m' ρ' hpre hagree
  have g := good_of_pre m hpre
  refine ⟨fun _ => Cert.KernelIdeal.Final.result m,
    Cert.KernelIdeal.Final.run ρ g (Cert.KernelIdeal.Conds.ok_of_len m g.len), ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [Cert.ReferenceIdeal.Read.val_main_v33_eq, Cert.ReferenceIdeal.RefValue.ref_eq, (hagree 0).1, (hagree 0).2.1,
    (hagree 0).2.2.1, (hagree 0).2.2.2.1, (hagree 0).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
